-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x25x3 : Shape := ⟨3, ![65536, 25, 3]⟩
abbrev S65536x8 : Shape := ⟨2, ![65536, 8]⟩
abbrev S25x2 : Shape := ⟨2, ![25, 2]⟩
abbrev S25x25 : Shape := ⟨2, ![25, 25]⟩
abbrev S_ : Shape := ⟨0, ![]⟩

class Facts : Prop where
  bcast_S_S65536x25x3 : S_.BroadcastsInDim S65536x25x3 (![] : Fin 0 → Fin S65536x25x3.rank)
  reducesTo_S65536x25x3_S_d0_1_2 : S65536x25x3.ReducesTo [0, 1, 2] S_
  h_S_ : 0 < S_.numel
  bcast_S_S25x2 : S_.BroadcastsInDim S25x2 (![] : Fin 0 → Fin S25x2.rank)
  reducesTo_S25x2_S_d0_1 : S25x2.ReducesTo [0, 1] S_
  bcast_S_S25x25 : S_.BroadcastsInDim S25x25 (![] : Fin 0 → Fin S25x25.rank)
  reducesTo_S25x25_S_d0_1 : S25x25.ReducesTo [0, 1] S_
  bcast_S_S65536x8 : S_.BroadcastsInDim S65536x8 (![] : Fin 0 → Fin S65536x8.rank)
  reducesTo_S65536x8_S_d0_1 : S65536x8.ReducesTo [0, 1] S_

variable [Facts]

def fn_part1 {F : FTy → Type} [FloatOps F] (main_v13 : IVec S_ 1) (main_v15 : IVec S65536x8 1) (main_c_5 : IVec S_ 1) : IVec S_ 1 :=
  let main_v16 : IVec S_ 1 := (fun x v => Host.reduce IntOp.andi x v reducesTo_S65536x8_S_d0_1 h_S_) main_v15 main_c_5
  let main_v17 : IVec S_ 1 := andi main_v13 main_v16
  main_v17

def fn {F : FTy → Type} [FloatOps F] (main_arg0 : FVec F S65536x25x3 .f32) (main_arg1 : IVec S65536x8 32) (main_arg2 : FVec F S25x2 .f32) (main_arg3 : FVec F S25x25 .f32) : IVec S_ 1 :=
  let main_v0 : FVec F S65536x25x3 .f32 := Host.absf main_arg0
  let main_cst : FVec F S_ .f32 := constant S_ .f32 0x7F800000#32
  let main_v1 : FVec F S65536x25x3 .f32 := broadcastInDim S65536x25x3 ![] bcast_S_S65536x25x3 main_cst
  let main_v2 : IVec S65536x25x3 1 := cmpf .olt main_v0 main_v1
  let main_c : IVec S_ 1 := constantI S_ 1 1#1
  let main_v3 : IVec S_ 1 := (fun x v => Host.reduce IntOp.andi x v reducesTo_S65536x25x3_S_d0_1_2 h_S_) main_v2 main_c
  let main_v4 : FVec F S25x2 .f32 := Host.absf main_arg2
  let main_cst_0 : FVec F S_ .f32 := constant S_ .f32 0x7F800000#32
  let main_v5 : FVec F S25x2 .f32 := broadcastInDim S25x2 ![] bcast_S_S25x2 main_cst_0
  let main_v6 : IVec S25x2 1 := cmpf .olt main_v4 main_v5
  let main_c_1 : IVec S_ 1 := constantI S_ 1 1#1
  let main_v7 : IVec S_ 1 := (fun x v => Host.reduce IntOp.andi x v reducesTo_S25x2_S_d0_1 h_S_) main_v6 main_c_1
  let main_v8 : IVec S_ 1 := andi main_v3 main_v7
  let main_v9 : FVec F S25x25 .f32 := Host.absf main_arg3
  let main_cst_2 : FVec F S_ .f32 := constant S_ .f32 0x7F800000#32
  let main_v10 : FVec F S25x25 .f32 := broadcastInDim S25x25 ![] bcast_S_S25x25 main_cst_2
  let main_v11 : IVec S25x25 1 := cmpf .olt main_v9 main_v10
  let main_c_3 : IVec S_ 1 := constantI S_ 1 1#1
  let main_v12 : IVec S_ 1 := (fun x v => Host.reduce IntOp.andi x v reducesTo_S25x25_S_d0_1 h_S_) main_v11 main_c_3
  let main_v13 : IVec S_ 1 := andi main_v8 main_v12
  let main_c_4 : IVec S_ 32 := constantI S_ 32 0#32
  let main_v14 : IVec S65536x8 32 := broadcastInDim S65536x8 ![] bcast_S_S65536x8 main_c_4
  let main_v15 : IVec S65536x8 1 := cmpi .sge main_arg1 main_v14
  let main_c_5 : IVec S_ 1 := constantI S_ 1 1#1
  fn_part1 (F := F) main_v13 main_v15 main_c_5
-- ==== Kernel.lean ====
abbrev S65536x25x3 : Shape := ⟨3, ![65536, 25, 3]⟩
abbrev S65536x8 : Shape := ⟨2, ![65536, 8]⟩
abbrev S25x2 : Shape := ⟨2, ![25, 2]⟩
abbrev S25x25 : Shape := ⟨2, ![25, 25]⟩
abbrev S65536x75 : Shape := ⟨2, ![65536, 75]⟩
abbrev S_ : Shape := ⟨0, ![]⟩
abbrev S3x6 : Shape := ⟨2, ![3, 6]⟩
abbrev S3 : Shape := ⟨1, ![3]⟩
abbrev S3x1 : Shape := ⟨2, ![3, 1]⟩
abbrev S3x2 : Shape := ⟨2, ![3, 2]⟩
abbrev S25x1x25x1 : Shape := ⟨4, ![25, 1, 25, 1]⟩
abbrev S1x3x1x6 : Shape := ⟨4, ![1, 3, 1, 6]⟩
abbrev S25x3x25x6 : Shape := ⟨4, ![25, 3, 25, 6]⟩
abbrev S75x150 : Shape := ⟨2, ![75, 150]⟩
abbrev S25x1 : Shape := ⟨2, ![25, 1]⟩
abbrev S25x25x1 : Shape := ⟨3, ![25, 25, 1]⟩
abbrev S25x25x6 : Shape := ⟨3, ![25, 25, 6]⟩
abbrev S25x150 : Shape := ⟨2, ![25, 150]⟩
abbrev S65536x1200 : Shape := ⟨2, ![65536, 1200]⟩
abbrev S2048x75 : Shape := ⟨2, ![2048, 75]⟩
abbrev S2048x8 : Shape := ⟨2, ![2048, 8]⟩
abbrev S2048x1200 : Shape := ⟨2, ![2048, 1200]⟩
abbrev S2048x150 : Shape := ⟨2, ![2048, 150]⟩
abbrev S2048x25 : Shape := ⟨2, ![2048, 25]⟩
abbrev S2048x1 : Shape := ⟨2, ![2048, 1]⟩
abbrev S65536x8x25x6 : Shape := ⟨4, ![65536, 8, 25, 6]⟩

abbrev nBuf : Space → Nat
  | .hbm => 58
  | .vmem => 8
  | .smem => 0
  | _ => 0

abbrev bufTy : (tb : Table) → Fin (tcTables nBuf tb) → BufTy
  | .hbm, ⟨0, _⟩ => ⟨S65536x25x3, .f32⟩
  | .hbm, ⟨1, _⟩ => ⟨S65536x8, .i32⟩
  | .hbm, ⟨2, _⟩ => ⟨S25x2, .f32⟩
  | .hbm, ⟨3, _⟩ => ⟨S25x25, .f32⟩
  | .hbm, ⟨4, _⟩ => ⟨S65536x75, .f32⟩
  | .hbm, ⟨5, _⟩ => ⟨S25x25, .i32⟩
  | .hbm, ⟨6, _⟩ => ⟨S25x25, .i32⟩
  | .hbm, ⟨7, _⟩ => ⟨S_, .i32⟩
  | .hbm, ⟨8, _⟩ => ⟨S25x25, .i32⟩
  | .hbm, ⟨9, _⟩ => ⟨S25x25, .i32⟩
  | .hbm, ⟨10, _⟩ => ⟨S25x25, .i1⟩
  | .hbm, ⟨11, _⟩ => ⟨S25x25, .f32⟩
  | .hbm, ⟨12, _⟩ => ⟨S_, .f32⟩
  | .hbm, ⟨13, _⟩ => ⟨S3x6, .f32⟩
  | .hbm, ⟨14, _⟩ => ⟨S3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S3, .i1⟩
  | .hbm, ⟨19, _⟩ => ⟨S_, .i32⟩
  | .hbm, ⟨20, _⟩ => ⟨S3, .i32⟩
  | .hbm, ⟨21, _⟩ => ⟨S3, .i32⟩
  | .hbm, ⟨22, _⟩ => ⟨S3, .i32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S3, .i32⟩
  | .hbm, ⟨30, _⟩ => ⟨S3x1, .i32⟩
  | .hbm, ⟨31, _⟩ => ⟨S3x1, .i32⟩
  | .hbm, ⟨32, _⟩ => ⟨S3x2, .i32⟩
  | .hbm, ⟨33, _⟩ => ⟨S_, .f32⟩
  | .hbm, ⟨34, _⟩ => ⟨S3, .f32⟩
  | .hbm, ⟨35, _⟩ => ⟨S3x6, .f32⟩
  | .hbm, ⟨36, _⟩ => ⟨S25x1x25x1, .f32⟩
  | .hbm, ⟨37, _⟩ => ⟨S1x3x1x6, .f32⟩
  | .hbm, ⟨38, _⟩ => ⟨S25x3x25x6, .f32⟩
  | .hbm, ⟨39, _⟩ => ⟨S25x3x25x6, .f32⟩
  | .hbm, ⟨40, _⟩ => ⟨S25x3x25x6, .f32⟩
  | .hbm, ⟨41, _⟩ => ⟨S75x150, .f32⟩
  | .hbm, ⟨42, _⟩ => ⟨S25x1, .f32⟩
  | .hbm, ⟨43, _⟩ => ⟨S25x25, .f32⟩
  | .hbm, ⟨44, _⟩ => ⟨S25x1, .f32⟩
  | .hbm, ⟨45, _⟩ => ⟨S25x25, .f32⟩
  | .hbm, ⟨46, _⟩ => ⟨S_, .f32⟩
  | .hbm, ⟨47, _⟩ => ⟨S25x25, .f32⟩
  | .hbm, ⟨48, _⟩ => ⟨S25x25x1, .f32⟩
  | .hbm, ⟨49, _⟩ => ⟨S25x25x1, .f32⟩
  | .hbm, ⟨50, _⟩ => ⟨S25x25x1, .f32⟩
  | .hbm, ⟨51, _⟩ => ⟨S25x25x1, .f32⟩
  | .hbm, ⟨52, _⟩ => ⟨S25x25x1, .f32⟩
  | .hbm, ⟨53, _⟩ => ⟨S25x25x1, .f32⟩
  | .hbm, ⟨54, _⟩ => ⟨S25x25x6, .f32⟩
  | .hbm, ⟨55, _⟩ => ⟨S25x150, .f32⟩
  | .hbm, ⟨56, _⟩ => ⟨S65536x1200, .f32⟩
  | .hbm, ⟨57, _⟩ => ⟨S65536x8x25x6, .f32⟩
  | .local _ .vmem, ⟨0, _⟩ => ⟨S2048x75, .f32⟩
  | .local _ .vmem, ⟨1, _⟩ => ⟨S2048x75, .f32⟩
  | .local _ .vmem, ⟨2, _⟩ => ⟨S2048x8, .i32⟩
  | .local _ .vmem, ⟨3, _⟩ => ⟨S2048x8, .i32⟩
  | .local _ .vmem, ⟨4, _⟩ => ⟨S75x150, .f32⟩
  | .local _ .vmem, ⟨5, _⟩ => ⟨S25x150, .f32⟩
  | .local _ .vmem, ⟨6, _⟩ => ⟨S2048x1200, .f32⟩
  | .local _ .vmem, ⟨7, _⟩ => ⟨S2048x1200, .f32⟩
  | _, _ => ⟨S65536x25x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S75x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x150 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S65536x25x3_S65536x75 : S65536x25x3.ShapeCasts S65536x75
  bcast_S_S25x25 : S_.BroadcastsInDim S25x25 (![] : Fin 0 → Fin S25x25.rank)
  bcast_S_S3x6 : S_.BroadcastsInDim S3x6 (![] : Fin 0 → Fin S3x6.rank)
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  bcast_S25x25_S25x1x25x1_0_2 : S25x25.BroadcastsInDim S25x1x25x1 (![0, 2] : Fin 2 → Fin S25x1x25x1.rank)
  bcast_S3x6_S1x3x1x6_1_3 : S3x6.BroadcastsInDim S1x3x1x6 (![1, 3] : Fin 2 → Fin S1x3x1x6.rank)
  bcast_S25x1x25x1_S25x3x25x6_0_1_2_3 : S25x1x25x1.BroadcastsInDim S25x3x25x6 (![0, 1, 2, 3] : Fin 4 → Fin S25x3x25x6.rank)
  bcast_S1x3x1x6_S25x3x25x6_0_1_2_3 : S1x3x1x6.BroadcastsInDim S25x3x25x6 (![0, 1, 2, 3] : Fin 4 → Fin S25x3x25x6.rank)
  shapeCasts_S25x3x25x6_S75x150 : S25x3x25x6.ShapeCasts S75x150
  slices_S25x2_S25x1_0_0 : S25x2.Slices ![0, 0] S25x1
  bcast_S25x1_S25x25_0_1 : S25x1.BroadcastsInDim S25x25 (![0, 1] : Fin 2 → Fin S25x25.rank)
  slices_S25x2_S25x1_0_1 : S25x2.Slices ![0, 1] S25x1
  bcast_S25x25_S25x25x1_0_1 : S25x25.BroadcastsInDim S25x25x1 (![0, 1] : Fin 2 → Fin S25x25x1.rank)
  concatenates_S25x25x1_S25x25x1_S25x25x1_S25x25x1_S25x25x1_S25x25x1_S25x25x6_d2 : Shape.Concatenates [S25x25x1, S25x25x1, S25x25x1, S25x25x1, S25x25x1, S25x25x1] S25x25x6 2
  shapeCasts_S25x25x6_S25x150 : S25x25x6.ShapeCasts S25x150
  inb_S2048x75_S2048x75_0_0 : ∀ a, (![0, 0] : Fin 2 → Nat) a + S2048x75.size a ≤ S2048x75.size a
  h_S2048x75 : 0 < S2048x75.numel
  shapeCasts_S2048x75_S2048x75 : S2048x75.ShapeCasts S2048x75
  inb_S75x150_S75x150_0_0 : ∀ a, (![0, 0] : Fin 2 → Nat) a + S75x150.size a ≤ S75x150.size a
  h_S75x150 : 0 < S75x150.numel
  shapeCasts_S75x150_S75x150 : S75x150.ShapeCasts S75x150
  inb_S25x150_S25x150_0_0 : ∀ a, (![0, 0] : Fin 2 → Nat) a + S25x150.size a ≤ S25x150.size a
  h_S25x150 : 0 < S25x150.numel
  shapeCasts_S25x150_S25x150 : S25x150.ShapeCasts S25x150
  iota_S2048x25_d1_w32 : S2048x25.Iotas .tc 32 [1]
  inb_S2048x8_S2048x1_0_0 : ∀ a, (![0, 0] : Fin 2 → Nat) a + S2048x1.size a ≤ S2048x8.size a
  h_S2048x1 : 0 < S2048x1.numel
  broadcasts_S2048x1_S2048x25 : S2048x1.Broadcasts S2048x25
  natLt_1_32 : 1 < 32
  inb_S2048x1200_S2048x150_0_0 : ∀ a, (![0, 0] : Fin 2 → Nat) a + S2048x150.size a ≤ S2048x1200.size a
  h_S2048x150 : 0 < S2048x150.numel
  inb_S2048x8_S2048x1_0_1 : ∀ a, (![0, 1] : Fin 2 → Nat) a + S2048x1.size a ≤ S2048x8.size a
  inb_S2048x1200_S2048x150_0_150 : ∀ a, (![0, 150] : Fin 2 → Nat) a + S2048x150.size a ≤ S2048x1200.size a
  inb_S2048x8_S2048x1_0_2 : ∀ a, (![0, 2] : Fin 2 → Nat) a + S2048x1.size a ≤ S2048x8.size a
  inb_S2048x1200_S2048x150_0_300 : ∀ a, (![0, 300] : Fin 2 → Nat) a + S2048x150.size a ≤ S2048x1200.size a
  inb_S2048x8_S2048x1_0_3 : ∀ a, (![0, 3] : Fin 2 → Nat) a + S2048x1.size a ≤ S2048x8.size a
  inb_S2048x1200_S2048x150_0_450 : ∀ a, (![0, 450] : Fin 2 → Nat) a + S2048x150.size a ≤ S2048x1200.size a
  inb_S2048x8_S2048x1_0_4 : ∀ a, (![0, 4] : Fin 2 → Nat) a + S2048x1.size a ≤ S2048x8.size a
  inb_S2048x1200_S2048x150_0_600 : ∀ a, (![0, 600] : Fin 2 → Nat) a + S2048x150.size a ≤ S2048x1200.size a
  inb_S2048x8_S2048x1_0_5 : ∀ a, (![0, 5] : Fin 2 → Nat) a + S2048x1.size a ≤ S2048x8.size a
  inb_S2048x1200_S2048x150_0_750 : ∀ a, (![0, 750] : Fin 2 → Nat) a + S2048x150.size a ≤ S2048x1200.size a
  inb_S2048x8_S2048x1_0_6 : ∀ a, (![0, 6] : Fin 2 → Nat) a + S2048x1.size a ≤ S2048x8.size a
  inb_S2048x1200_S2048x150_0_900 : ∀ a, (![0, 900] : Fin 2 → Nat) a + S2048x150.size a ≤ S2048x1200.size a
  inb_S2048x8_S2048x1_0_7 : ∀ a, (![0, 7] : Fin 2 → Nat) a + S2048x1.size a ≤ S2048x8.size a
  inb_S2048x1200_S2048x150_0_1050 : ∀ a, (![0, 1050] : Fin 2 → Nat) a + S2048x150.size a ≤ S2048x1200.size a
  shapeCasts_S65536x1200_S65536x8x25x6 : S65536x1200.ShapeCasts S65536x8x25x6
  scatter_S3x6_S3x2_S3_n_01_01_1_wf : ScatterDims.WF S3x6 S3x2 S3 [] [0, 1] [0, 1] 1
  dot_S2048x75_S75x150_S2048x150_1_0_0_1_n_n_wf : DotDims.WF S2048x75 S75x150 S2048x150 [1] [0] [0] [1] [] []
  dot_S2048x25_S25x150_S2048x150_1_0_0_1_n_n_wf : DotDims.WF S2048x25 S25x150 S2048x150 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x75.size a ≤ S65536x75.size a
  hwx0_0 : ∀ i : grid0.Coords, EltTy.bits .f32 = 32 ∨ (Rect.block (s := S65536x75) S2048x75.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S65536x8.size a
  hwx0_1 : ∀ i : grid0.Coords, EltTy.bits .i32 = 32 ∨ (Rect.block (s := S65536x8) S2048x8.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S75x150.size a ≤ S75x150.size a
  hwx0_2 : ∀ i : grid0.Coords, EltTy.bits .f32 = 32 ∨ (Rect.block (s := S75x150) S75x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x150.size a ≤ S25x150.size a
  hwx0_3 : ∀ i : grid0.Coords, EltTy.bits .f32 = 32 ∨ (Rect.block (s := S25x150) S25x150.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1200.size a ≤ S65536x1200.size a
  hwx0_4 : ∀ i : grid0.Coords, EltTy.bits .f32 = 32 ∨ (Rect.block (s := S65536x1200) S2048x1200.size (cc0_transform_4 i) (hinb0_4 i)).WholeWords (EltTy.packing .f32)

variable [Facts₀]

def scatter_S3x6_S3x2_S3_n_01_01_1 : ScatterDims S3x6 S3x2 S3 where
  updateWindowDims := []
  insertedWindowDims := [0, 1]
  scatterDimsToOperandDims := [0, 1]
  indexVectorDim := 1
  wf := scatter_S3x6_S3x2_S3_n_01_01_1_wf
def dot_S2048x75_S75x150_S2048x150_1_0_0_1_n_n : DotDims S2048x75 S75x150 S2048x150 where
  lhsContracting := [1]
  rhsContracting := [0]
  lhsNonContracting := [0]
  rhsNonContracting := [1]
  lhsBatch := []
  rhsBatch := []
  wf := dot_S2048x75_S75x150_S2048x150_1_0_0_1_n_n_wf
def dot_S2048x25_S25x150_S2048x150_1_0_0_1_n_n : DotDims S2048x25 S25x150 S2048x150 where
  lhsContracting := [1]
  rhsContracting := [0]
  lhsNonContracting := [0]
  rhsNonContracting := [1]
  lhsBatch := []
  rhsBatch := []
  wf := dot_S2048x25_S25x150_S2048x150_1_0_0_1_n_n_wf

abbrev win0_0 : Pipeline.Window sig grid0 :=
  Pipeline.Window.ofSpec (Memref.whole main_v0) S2048x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S75x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S25x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S2048x1200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x25x3 : Shape := ⟨3, ![65536, 25, 3]⟩
abbrev S65536x8 : Shape := ⟨2, ![65536, 8]⟩
abbrev S25x2 : Shape := ⟨2, ![25, 2]⟩
abbrev S25x25 : Shape := ⟨2, ![25, 25]⟩
abbrev S_ : Shape := ⟨0, ![]⟩
abbrev S65536x8x1 : Shape := ⟨3, ![65536, 8, 1]⟩
abbrev S65536x8x2 : Shape := ⟨3, ![65536, 8, 2]⟩
abbrev S65536x8x25 : Shape := ⟨3, ![65536, 8, 25]⟩
abbrev S65536x1x25x3 : Shape := ⟨4, ![65536, 1, 25, 3]⟩
abbrev S65536x8x25x3 : Shape := ⟨4, ![65536, 8, 25, 3]⟩
abbrev S65536x8x1x2 : Shape := ⟨4, ![65536, 8, 1, 2]⟩
abbrev S65536x8x25x2 : Shape := ⟨4, ![65536, 8, 25, 2]⟩
abbrev S65536x8x25x1 : Shape := ⟨4, ![65536, 8, 25, 1]⟩
abbrev S65536x8x25x6 : Shape := ⟨4, ![65536, 8, 25, 6]⟩

abbrev nBuf : Space → Nat
  | .hbm => 28
  | .vmem => 0
  | .smem => 0
  | _ => 0

abbrev bufTy : (tb : Table) → Fin (tcTables nBuf tb) → BufTy
  | .hbm, ⟨0, _⟩ => ⟨S65536x25x3, .f32⟩
  | .hbm, ⟨1, _⟩ => ⟨S65536x8, .i32⟩
  | .hbm, ⟨2, _⟩ => ⟨S25x2, .f32⟩
  | .hbm, ⟨3, _⟩ => ⟨S25x25, .f32⟩
  | .hbm, ⟨4, _⟩ => ⟨S_, .i32⟩
  | .hbm, ⟨5, _⟩ => ⟨S65536x8, .i32⟩
  | .hbm, ⟨6, _⟩ => ⟨S65536x8, .i1⟩
  | .hbm, ⟨7, _⟩ => ⟨S_, .i32⟩
  | .hbm, ⟨8, _⟩ => ⟨S65536x8, .i32⟩
  | .hbm, ⟨9, _⟩ => ⟨S65536x8, .i32⟩
  | .hbm, ⟨10, _⟩ => ⟨S65536x8, .i32⟩
  | .hbm, ⟨11, _⟩ => ⟨S65536x8x1, .i32⟩
  | .hbm, ⟨12, _⟩ => ⟨S65536x8x2, .f32⟩
  | .hbm, ⟨13, _⟩ => ⟨S_, .i32⟩
  | .hbm, ⟨14, _⟩ => ⟨S65536x8, .i32⟩
  | .hbm, ⟨15, _⟩ => ⟨S65536x8, .i1⟩
  | .hbm, ⟨16, _⟩ => ⟨S_, .i32⟩
  | .hbm, ⟨17, _⟩ => ⟨S65536x8, .i32⟩
  | .hbm, ⟨18, _⟩ => ⟨S65536x8, .i32⟩
  | .hbm, ⟨19, _⟩ => ⟨S65536x8, .i32⟩
  | .hbm, ⟨20, _⟩ => ⟨S65536x8x1, .i32⟩
  | .hbm, ⟨21, _⟩ => ⟨S65536x8x25, .f32⟩
  | .hbm, ⟨22, _⟩ => ⟨S65536x1x25x3, .f32⟩
  | .hbm, ⟨23, _⟩ => ⟨S65536x8x25x3, .f32⟩
  | .hbm, ⟨24, _⟩ => ⟨S65536x8x1x2, .f32⟩
  | .hbm, ⟨25, _⟩ => ⟨S65536x8x25x2, .f32⟩
  | .hbm, ⟨26, _⟩ => ⟨S65536x8x25x1, .f32⟩
  | .hbm, ⟨27, _⟩ => ⟨S65536x8x25x6, .f32⟩
  | _, _ => ⟨S65536x25x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x25x3_S65536x1x25x3_0_2_3 : S65536x25x3.BroadcastsInDim S65536x1x25x3 (![0, 2, 3] : Fin 3 → Fin S65536x1x25x3.rank)
  bcast_S65536x1x25x3_S65536x8x25x3_0_1_2_3 : S65536x1x25x3.BroadcastsInDim S65536x8x25x3 (![0, 1, 2, 3] : Fin 4 → Fin S65536x8x25x3.rank)
  bcast_S65536x8x2_S65536x8x1x2_0_1_3 : S65536x8x2.BroadcastsInDim S65536x8x1x2 (![0, 1, 3] : Fin 3 → Fin S65536x8x1x2.rank)
  bcast_S65536x8x1x2_S65536x8x25x2_0_1_2_3 : S65536x8x1x2.BroadcastsInDim S65536x8x25x2 (![0, 1, 2, 3] : Fin 4 → Fin S65536x8x25x2.rank)
  bcast_S65536x8x25_S65536x8x25x1_0_1_2 : S65536x8x25.BroadcastsInDim S65536x8x25x1 (![0, 1, 2] : Fin 3 → Fin S65536x8x25x1.rank)
  concatenates_S65536x8x25x3_S65536x8x25x2_S65536x8x25x1_S65536x8x25x6_d3 : Shape.Concatenates [S65536x8x25x3, S65536x8x25x2, S65536x8x25x1] S65536x8x25x6 3
  gather_S25x2_S65536x8x1_S65536x8x2_2_0_n_n_0_2_12_wf : GatherDims.WF S25x2 S65536x8x1 S65536x8x2 [2] [0] [] [0] [] 2 ![1, 2]
  gather_S25x25_S65536x8x1_S65536x8x25_2_0_n_n_0_2_125_wf : GatherDims.WF S25x25 S65536x8x1 S65536x8x25 [2] [0] [] [0] [] 2 ![1, 25]

variable [Facts₀]

def gather_S25x2_S65536x8x1_S65536x8x2_2_0_n_n_0_2_12 : GatherDims S25x2 S65536x8x1 S65536x8x2 where
  offsetDims := [2]
  collapsedSliceDims := [0]
  operandBatchingDims := []
  startIndicesBatchingDims := []
  startIndexMap := [0]
  indexVectorDim := 2
  sliceSizes := ![1, 2]
  wf := gather_S25x2_S65536x8x1_S65536x8x2_2_0_n_n_0_2_12_wf
def gather_S25x25_S65536x8x1_S65536x8x25_2_0_n_n_0_2_125 : GatherDims S25x25 S65536x8x1 S65536x8x25 where
  offsetDims := [2]
  collapsedSliceDims := [0]
  operandBatchingDims := []
  startIndicesBatchingDims := []
  startIndexMap := [0]
  indexVectorDim := 2
  sliceSizes := ![1, 25]
  wf := gather_S25x25_S65536x8x1_S65536x8x25_2_0_n_n_0_2_125_wf

class Facts : Prop extends Facts₀ where

variable [Facts]
-- ==== Proof.KernelEntry.lean ====
/-
  @main of `Kernel` around its one pipelined region: a stretch of host operations that builds the two
  scatter tables from the inputs, the region over 32 row tiles, and a final reshape.  This module fixes,
  at any float instance, what the region finds in each buffer when it is entered, that no host operation
  touches an argument of @main, each window's block at a grid point, and how the frame claim's
  postcondition follows from a run that names every array at its end.
-/
import proofs.«424781_j79190607003709_3_alg».proof.Proof.Gen.Kernel.Launch
import proofs.«424781_j79190607003709_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the host
    operations that come before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, and the final reshape continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument of @main: the region finds each as launched. -/
theorem V_arg (b : Ref sig .tc) (hb : b = main_arg0 ∨ b = main_arg1 ∨ b = main_arg2 ∨ b = main_arg3) (c : Dev nD) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide)))

theorem V_main_arg0 (c : Dev nD) : V m c main_arg0 = m ((c : Thread nD τ).loc main_arg0) := V_arg m main_arg0 (.inl rfl) c
theorem V_main_arg1 (c : Dev nD) : V m c main_arg1 = m ((c : Thread nD τ).loc main_arg1) := V_arg m main_arg1 (.inr (.inl rfl)) c
theorem V_main_arg2 (c : Dev nD) : V m c main_arg2 = m ((c : Thread nD τ).loc main_arg2) := V_arg m main_arg2 (.inr (.inr (.inl rfl))) c
theorem V_main_arg3 (c : Dev nD) : V m c main_arg3 = m ((c : Thread nD τ).loc main_arg3) := V_arg m main_arg3 (.inr (.inr (.inr rfl))) c

/-- The final reshape writes none of the three arguments the pipeline does not stage: each ends as launched. -/
theorem W_arg (dats : (p : Fin _) → (c : Dev nD) → Dat τ (Elt F) Unit ℕ (UR sig nD τ) ℕ (cfgs p) c)
    (b : Ref sig .tc) (hb : b = main_arg0 ∨ b = main_arg2 ∨ b = main_arg3) (c : Dev nD) :
    Pipeline.afterTail₀ cfgs dats 0 (V0 m) [hostOps1] c b = m ((c : Thread nD τ).loc b) := by
  unfold Pipeline.afterTail₀
  rcases hb with rfl | rfl | rfl
  · rw [StableHlo.after_of_forall_not_mem (b := Proc.devRef .tc main_arg0) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg0 (by exact (by decide : ∀ w, Pipeline.arrRef spec0 w ≠ main_arg0))]
    exact V_main_arg0 m c
  · rw [StableHlo.after_of_forall_not_mem (b := Proc.devRef .tc main_arg2) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg2 (by exact (by decide : ∀ w, Pipeline.arrRef spec0 w ≠ main_arg2))]
    exact V_main_arg2 m c
  · rw [StableHlo.after_of_forall_not_mem (b := Proc.devRef .tc main_arg3) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg3 (by exact (by decide : ∀ w, Pipeline.arrRef spec0 w ≠ main_arg3))]
    exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m dats main_arg0 (.inl rfl) c),
     ((h c).1 1).trans (((dats 0 c).arrAt_in 1 rfl _).trans ((hA c 1).trans (V_main_arg1 m c))),
     ((h c).2 main_arg2 (Pipeline.mem_restRefs_of main_arg2 (by decide) (by decide))).trans (W_arg m dats main_arg2 (.inr (.inl rfl)) c),
     ((h c).2 main_arg3 (Pipeline.mem_restRefs_of main_arg3 (by decide) (by decide))).trans (W_arg m dats main_arg3 (.inr (.inr rfl)) c)⟩) h

end Cert.Kernel.Hand

end
-- ==== Proof.KernelTile.lean ====
/-
  What one grid point of `Kernel`'s kernel leaves in its output tile of 2048 rows and 1200 columns, as a
  function of the four input blocks (state rows, visit indices, the state scatter table, the gather
  table): eight column slabs of 150, slab `a` the state product plus the one-hot product of index
  column `a`.  The slabs tile the buffer.
-/
import proofs.«424781_j79190607003709_3_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev rS : Rect S2048x75 := Rect.unit (s := S2048x75) ![0, 0] S2048x75.size inb_S2048x75_S2048x75_0_0
abbrev rP : Rect S75x150 := Rect.unit (s := S75x150) ![0, 0] S75x150.size inb_S75x150_S75x150_0_0
abbrev rT : Rect S25x150 := Rect.unit (s := S25x150) ![0, 0] S25x150.size inb_S25x150_S25x150_0_0
abbrev rI0 : Rect S2048x8 := Rect.unit (s := S2048x8) ![0, 0] S2048x1.size inb_S2048x8_S2048x1_0_0
abbrev rI1 : Rect S2048x8 := Rect.unit (s := S2048x8) ![0, 1] S2048x1.size inb_S2048x8_S2048x1_0_1
abbrev rI2 : Rect S2048x8 := Rect.unit (s := S2048x8) ![0, 2] S2048x1.size inb_S2048x8_S2048x1_0_2
abbrev rI3 : Rect S2048x8 := Rect.unit (s := S2048x8) ![0, 3] S2048x1.size inb_S2048x8_S2048x1_0_3
abbrev rI4 : Rect S2048x8 := Rect.unit (s := S2048x8) ![0, 4] S2048x1.size inb_S2048x8_S2048x1_0_4
abbrev rI5 : Rect S2048x8 := Rect.unit (s := S2048x8) ![0, 5] S2048x1.size inb_S2048x8_S2048x1_0_5
abbrev rI6 : Rect S2048x8 := Rect.unit (s := S2048x8) ![0, 6] S2048x1.size inb_S2048x8_S2048x1_0_6
abbrev rI7 : Rect S2048x8 := Rect.unit (s := S2048x8) ![0, 7] S2048x1.size inb_S2048x8_S2048x1_0_7
abbrev rO0 : Rect S2048x1200 := Rect.unit (s := S2048x1200) ![0, 0] S2048x150.size inb_S2048x1200_S2048x150_0_0
abbrev rO1 : Rect S2048x1200 := Rect.unit (s := S2048x1200) ![0, 150] S2048x150.size inb_S2048x1200_S2048x150_0_150
abbrev rO2 : Rect S2048x1200 := Rect.unit (s := S2048x1200) ![0, 300] S2048x150.size inb_S2048x1200_S2048x150_0_300
abbrev rO3 : Rect S2048x1200 := Rect.unit (s := S2048x1200) ![0, 450] S2048x150.size inb_S2048x1200_S2048x150_0_450
abbrev rO4 : Rect S2048x1200 := Rect.unit (s := S2048x1200) ![0, 600] S2048x150.size inb_S2048x1200_S2048x150_0_600
abbrev rO5 : Rect S2048x1200 := Rect.unit (s := S2048x1200) ![0, 750] S2048x150.size inb_S2048x1200_S2048x150_0_750
abbrev rO6 : Rect S2048x1200 := Rect.unit (s := S2048x1200) ![0, 900] S2048x150.size inb_S2048x1200_S2048x150_0_900
abbrev rO7 : Rect S2048x1200 := Rect.unit (s := S2048x1200) ![0, 1050] S2048x150.size inb_S2048x1200_S2048x150_0_1050

/-! ## What the body leaves in the output tile -/

/-- The lane index along the 25 graph nodes, which every slab's one-hot mask is compared against. -/
abbrev laneIota : IVec S2048x25 32 := iota .tc S2048x25 32 [1] iota_S2048x25_d1_w32

/-- The output tile after the body, from the four input blocks: its eight stores, last first.  Slab `a`
    (columns `150 a` to `150 a + 149`) is the state product plus the one-hot product of index column `a`. -/
def outTile (x0 : Vec F S2048x75 .f32) (x1 : Vec F S2048x8 .i32) (x2 : Vec F S75x150 .f32) (x3 : Vec F S25x150 .f32) : Vec F S2048x1200 .f32 :=
  View.canon [
    ⟨rO7, k0_pay3 (k0_pay4 (View.ld x3 rT)) (k0_pay5 (View.ld x0 rS) (View.ld x2 rP)) laneIota (View.ld x1 rI7)⟩,
    ⟨rO6, k0_pay2 (k0_pay4 (View.ld x3 rT)) (k0_pay5 (View.ld x0 rS) (View.ld x2 rP)) laneIota (View.ld x1 rI6)⟩,
    ⟨rO5, k0_pay1 (k0_pay4 (View.ld x3 rT)) (k0_pay5 (View.ld x0 rS) (View.ld x2 rP)) laneIota (View.ld x1 rI5) 0#32⟩,
    ⟨rO4, k0_pay10 (k0_pay4 (View.ld x3 rT)) (k0_pay5 (View.ld x0 rS) (View.ld x2 rP)) laneIota (View.ld x1 rI4)⟩,
    ⟨rO3, k0_pay9 (k0_pay4 (View.ld x3 rT)) (k0_pay5 (View.ld x0 rS) (View.ld x2 rP)) laneIota (View.ld x1 rI3)⟩,
    ⟨rO2, k0_pay8 (k0_pay4 (View.ld x3 rT)) (k0_pay5 (View.ld x0 rS) (View.ld x2 rP)) laneIota (View.ld x1 rI2) 0#32⟩,
    ⟨rO1, k0_pay7 (View.ld x0 rS) (View.ld x2 rP) (View.ld x3 rT) (View.ld x1 rI1)⟩,
    ⟨rO0, k0_pay6 (View.ld x0 rS) (View.ld x2 rP) (View.ld x3 rT) (View.ld x1 rI0)⟩]

/-- The eight slabs tile the output tile, so they cover it. -/
theorem outTile_cover (p0 p1 p2 p3 p4 p5 p6 p7 : Vec F S2048x150 .f32) (y : S2048x1200.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S2048x1200 .f32)), y ∈ pc.1.set :=
  View.cover_of_tiled (s := S2048x1200) [⟨rO7, p7⟩, ⟨rO6, p6⟩, ⟨rO5, p5⟩, ⟨rO4, p4⟩, ⟨rO3, p3⟩, ⟨rO2, p2⟩, ⟨rO1, p1⟩, ⟨rO0, p0⟩] S2048x150.size (by rfl) y

end Cert.Kernel.Hand

end
-- ==== Proof.KernelBody.lean ====
/-
  The body of `Kernel`'s kernel at one grid point, and the run of @main.  The body reads its four input
  blocks, forms the state product once and a one-hot product per agent, and stores eight column slabs
  that together overwrite the output tile; the pipeline's proof data names what each staging buffer holds
  after every point, and the launch theorem for a region with host operations on both sides turns the
  per-point triple into the run of @main with every array named at its end.
-/
import proofs.«424781_j79190607003709_3_alg».proof.Proof.KernelEntry
import proofs.«424781_j79190607003709_3_alg».proof.Proof.KernelTile

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at contents `x0 … x3` and the output's at anything,
    runs to the continuation holding the inputs' as they were and the output's at `outTile` of them. -/
theorem sound_kernel (c : Dev nD) (E : Set ℕ) (i : grid0.Coords)
    (arg1 : Memref sig .tc .vmem S2048x75 .f32) (harg1 : arg1.IsWhole) (arg2 : Memref sig .tc .vmem S2048x8 .i32) (harg2 : arg2.IsWhole)
    (arg3 : Memref sig .tc .vmem S75x150 .f32) (harg3 : arg3.IsWhole) (arg4 : Memref sig .tc .vmem S25x150 .f32) (harg4 : arg4.IsWhole)
    (arg5 : Memref sig .tc .vmem S2048x1200 .f32) (harg5 : arg5.IsWhole)
    (x0 : Vec F S2048x75 .f32) (x1 : Vec F S2048x8 .i32) (x2 : Vec F S75x150 .f32) (x3 : Vec F S25x150 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outTile x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton, k0_part1_eq_skeleton, k0_part2_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile_cover _ _ _ _ _ _ _ _)

/-! ## The pipeline's proof data -/

/-- The proof data of the pipeline on core `c`: the arrays as the region finds them; after the body at
    point `t` each input's buffer at its block and the output's at `outTile` of the four input blocks;
    nothing of the core's own is used, nothing is owed, the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the kernel's triple applies; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline
    holds what the proof data computes for it and every other buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end without a fault and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdealEntry.lean ====
/-
  @main of `KernelIdeal` around its one pipelined region: a stretch of host operations that builds the two
  scatter tables from the inputs, the region over 32 row tiles, and a final reshape.  This module fixes,
  at any float instance, what the region finds in each buffer when it is entered, that no host operation
  touches an argument of @main, each window's block at a grid point, and how the frame claim's
  postcondition follows from a run that names every array at its end.
-/
import proofs.«424781_j79190607003709_3_alg».proof.Proof.Gen.KernelIdeal.Launch
import proofs.«424781_j79190607003709_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the host
    operations that come before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the region, and the final reshape continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the pipeline's arrays and bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument of @main: the region finds each as launched. -/
theorem V_arg (b : Ref sig .tc) (hb : b = main_arg0 ∨ b = main_arg1 ∨ b = main_arg2 ∨ b = main_arg3) (c : Dev nD) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide)))

theorem V_main_arg0 (c : Dev nD) : V m c main_arg0 = m ((c : Thread nD τ).loc main_arg0) := V_arg m main_arg0 (.inl rfl) c
theorem V_main_arg1 (c : Dev nD) : V m c main_arg1 = m ((c : Thread nD τ).loc main_arg1) := V_arg m main_arg1 (.inr (.inl rfl)) c
theorem V_main_arg2 (c : Dev nD) : V m c main_arg2 = m ((c : Thread nD τ).loc main_arg2) := V_arg m main_arg2 (.inr (.inr (.inl rfl))) c
theorem V_main_arg3 (c : Dev nD) : V m c main_arg3 = m ((c : Thread nD τ).loc main_arg3) := V_arg m main_arg3 (.inr (.inr (.inr rfl))) c

/-- The final reshape writes none of the three arguments the pipeline does not stage: each ends as launched. -/
theorem W_arg (dats : (p : Fin _) → (c : Dev nD) → Dat τ (Elt F) Unit ℕ (UR sig nD τ) ℕ (cfgs p) c)
    (b : Ref sig .tc) (hb : b = main_arg0 ∨ b = main_arg2 ∨ b = main_arg3) (c : Dev nD) :
    Pipeline.afterTail₀ cfgs dats 0 (V0 m) [hostOps1] c b = m ((c : Thread nD τ).loc b) := by
  unfold Pipeline.afterTail₀
  rcases hb with rfl | rfl | rfl
  · rw [StableHlo.after_of_forall_not_mem (b := Proc.devRef .tc main_arg0) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg0 (by exact (by decide : ∀ w, Pipeline.arrRef spec0 w ≠ main_arg0))]
    exact V_main_arg0 m c
  · rw [StableHlo.after_of_forall_not_mem (b := Proc.devRef .tc main_arg2) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg2 (by exact (by decide : ∀ w, Pipeline.arrRef spec0 w ≠ main_arg2))]
    exact V_main_arg2 m c
  · rw [StableHlo.after_of_forall_not_mem (b := Proc.devRef .tc main_arg3) _ _ (List.forall_iff_forall_mem.mp (by
        simp only [hostOps1, List.flatten_cons, List.flatten_nil, List.append_nil, List.cons_append,
          List.nil_append, List.Forall, StableHlo.reshape_writes, Finset.mem_singleton]
        exact StableHlo.devRef_ne_of_ne (by decide))),
      Pipeline.withArrays_of_ne _ c (V0 m c) _ main_arg3 (by exact (by decide : ∀ w, Pipeline.arrRef spec0 w ≠ main_arg3))]
    exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m dats main_arg0 (.inl rfl) c),
     ((h c).1 1).trans (((dats 0 c).arrAt_in 1 rfl _).trans ((hA c 1).trans (V_main_arg1 m c))),
     ((h c).2 main_arg2 (Pipeline.mem_restRefs_of main_arg2 (by decide) (by decide))).trans (W_arg m dats main_arg2 (.inr (.inl rfl)) c),
     ((h c).2 main_arg3 (Pipeline.mem_restRefs_of main_arg3 (by decide) (by decide))).trans (W_arg m dats main_arg3 (.inr (.inr rfl)) c)⟩) h

end Cert.KernelIdeal.Hand

end
-- ==== Proof.KernelIdealTile.lean ====
/-
  What one grid point of `KernelIdeal`'s kernel leaves in its output tile of 2048 rows and 1200 columns, as a
  function of the four input blocks (state rows, visit indices, the state scatter table, the gather
  table): eight column slabs of 150, slab `a` the state product plus the one-hot product of index
  column `a`.  The slabs tile the buffer.
-/
import proofs.«424781_j79190607003709_3_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev rS : Rect S2048x75 := Rect.unit (s := S2048x75) ![0, 0] S2048x75.size inb_S2048x75_S2048x75_0_0
abbrev rP : Rect S75x150 := Rect.unit (s := S75x150) ![0, 0] S75x150.size inb_S75x150_S75x150_0_0
abbrev rT : Rect S25x150 := Rect.unit (s := S25x150) ![0, 0] S25x150.size inb_S25x150_S25x150_0_0
abbrev rI0 : Rect S2048x8 := Rect.unit (s := S2048x8) ![0, 0] S2048x1.size inb_S2048x8_S2048x1_0_0
abbrev rI1 : Rect S2048x8 := Rect.unit (s := S2048x8) ![0, 1] S2048x1.size inb_S2048x8_S2048x1_0_1
abbrev rI2 : Rect S2048x8 := Rect.unit (s := S2048x8) ![0, 2] S2048x1.size inb_S2048x8_S2048x1_0_2
abbrev rI3 : Rect S2048x8 := Rect.unit (s := S2048x8) ![0, 3] S2048x1.size inb_S2048x8_S2048x1_0_3
abbrev rI4 : Rect S2048x8 := Rect.unit (s := S2048x8) ![0, 4] S2048x1.size inb_S2048x8_S2048x1_0_4
abbrev rI5 : Rect S2048x8 := Rect.unit (s := S2048x8) ![0, 5] S2048x1.size inb_S2048x8_S2048x1_0_5
abbrev rI6 : Rect S2048x8 := Rect.unit (s := S2048x8) ![0, 6] S2048x1.size inb_S2048x8_S2048x1_0_6
abbrev rI7 : Rect S2048x8 := Rect.unit (s := S2048x8) ![0, 7] S2048x1.size inb_S2048x8_S2048x1_0_7
abbrev rO0 : Rect S2048x1200 := Rect.unit (s := S2048x1200) ![0, 0] S2048x150.size inb_S2048x1200_S2048x150_0_0
abbrev rO1 : Rect S2048x1200 := Rect.unit (s := S2048x1200) ![0, 150] S2048x150.size inb_S2048x1200_S2048x150_0_150
abbrev rO2 : Rect S2048x1200 := Rect.unit (s := S2048x1200) ![0, 300] S2048x150.size inb_S2048x1200_S2048x150_0_300
abbrev rO3 : Rect S2048x1200 := Rect.unit (s := S2048x1200) ![0, 450] S2048x150.size inb_S2048x1200_S2048x150_0_450
abbrev rO4 : Rect S2048x1200 := Rect.unit (s := S2048x1200) ![0, 600] S2048x150.size inb_S2048x1200_S2048x150_0_600
abbrev rO5 : Rect S2048x1200 := Rect.unit (s := S2048x1200) ![0, 750] S2048x150.size inb_S2048x1200_S2048x150_0_750
abbrev rO6 : Rect S2048x1200 := Rect.unit (s := S2048x1200) ![0, 900] S2048x150.size inb_S2048x1200_S2048x150_0_900
abbrev rO7 : Rect S2048x1200 := Rect.unit (s := S2048x1200) ![0, 1050] S2048x150.size inb_S2048x1200_S2048x150_0_1050

/-! ## What the body leaves in the output tile -/

/-- The lane index along the 25 graph nodes, which every slab's one-hot mask is compared against. -/
abbrev laneIota : IVec S2048x25 32 := iota .tc S2048x25 32 [1] iota_S2048x25_d1_w32

/-- The output tile after the body, from the four input blocks: its eight stores, last first.  Slab `a`
    (columns `150 a` to `150 a + 149`) is the state product plus the one-hot product of index column `a`. -/
def outTile (x0 : Vec F S2048x75 .f32) (x1 : Vec F S2048x8 .i32) (x2 : Vec F S75x150 .f32) (x3 : Vec F S25x150 .f32) : Vec F S2048x1200 .f32 :=
  View.canon [
    ⟨rO7, k0_pay3 (k0_pay4 (View.ld x3 rT)) (k0_pay5 (View.ld x0 rS) (View.ld x2 rP)) laneIota (View.ld x1 rI7)⟩,
    ⟨rO6, k0_pay2 (k0_pay4 (View.ld x3 rT)) (k0_pay5 (View.ld x0 rS) (View.ld x2 rP)) laneIota (View.ld x1 rI6)⟩,
    ⟨rO5, k0_pay1 (k0_pay4 (View.ld x3 rT)) (k0_pay5 (View.ld x0 rS) (View.ld x2 rP)) laneIota (View.ld x1 rI5) 0#32⟩,
    ⟨rO4, k0_pay10 (k0_pay4 (View.ld x3 rT)) (k0_pay5 (View.ld x0 rS) (View.ld x2 rP)) laneIota (View.ld x1 rI4)⟩,
    ⟨rO3, k0_pay9 (k0_pay4 (View.ld x3 rT)) (k0_pay5 (View.ld x0 rS) (View.ld x2 rP)) laneIota (View.ld x1 rI3)⟩,
    ⟨rO2, k0_pay8 (k0_pay4 (View.ld x3 rT)) (k0_pay5 (View.ld x0 rS) (View.ld x2 rP)) laneIota (View.ld x1 rI2) 0#32⟩,
    ⟨rO1, k0_pay7 (View.ld x0 rS) (View.ld x2 rP) (View.ld x3 rT) (View.ld x1 rI1)⟩,
    ⟨rO0, k0_pay6 (View.ld x0 rS) (View.ld x2 rP) (View.ld x3 rT) (View.ld x1 rI0)⟩]

/-- The eight slabs tile the output tile, so they cover it. -/
theorem outTile_cover (p0 p1 p2 p3 p4 p5 p6 p7 : Vec F S2048x150 .f32) (y : S2048x1200.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S2048x1200 .f32)), y ∈ pc.1.set :=
  View.cover_of_tiled (s := S2048x1200) [⟨rO7, p7⟩, ⟨rO6, p6⟩, ⟨rO5, p5⟩, ⟨rO4, p4⟩, ⟨rO3, p3⟩, ⟨rO2, p2⟩, ⟨rO1, p1⟩, ⟨rO0, p0⟩] S2048x150.size (by rfl) y

end Cert.KernelIdeal.Hand

end
-- ==== Proof.KernelIdealBody.lean ====
/-
  The body of `KernelIdeal`'s kernel at one grid point, and the run of @main.  The body reads its four input
  blocks, forms the state product once and a one-hot product per agent, and stores eight column slabs
  that together overwrite the output tile; the pipeline's proof data names what each staging buffer holds
  after every point, and the launch theorem for a region with host operations on both sides turns the
  per-point triple into the run of @main with every array named at its end.
-/
import proofs.«424781_j79190607003709_3_alg».proof.Proof.KernelIdealEntry
import proofs.«424781_j79190607003709_3_alg».proof.Proof.KernelIdealTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at contents `x0 … x3` and the output's at anything,
    runs to the continuation holding the inputs' as they were and the output's at `outTile` of them. -/
theorem sound_kernel (c : Dev nD) (E : Set ℕ) (i : grid0.Coords)
    (arg1 : Memref sig .tc .vmem S2048x75 .f32) (harg1 : arg1.IsWhole) (arg2 : Memref sig .tc .vmem S2048x8 .i32) (harg2 : arg2.IsWhole)
    (arg3 : Memref sig .tc .vmem S75x150 .f32) (harg3 : arg3.IsWhole) (arg4 : Memref sig .tc .vmem S25x150 .f32) (harg4 : arg4.IsWhole)
    (arg5 : Memref sig .tc .vmem S2048x1200 .f32) (harg5 : arg5.IsWhole)
    (x0 : Vec F S2048x75 .f32) (x1 : Vec F S2048x8 .i32) (x2 : Vec F S75x150 .f32) (x3 : Vec F S25x150 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outTile x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton, k0_part1_eq_skeleton, k0_part2_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile_cover _ _ _ _ _ _ _ _)

/-! ## The pipeline's proof data -/

/-- The proof data of the pipeline on core `c`: the arrays as the region finds them; after the body at
    point `t` each input's buffer at its block and the output's at `outTile` of the four input blocks;
    nothing of the core's own is used, nothing is owed, the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the kernel's triple applies; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline
    holds what the proof data computes for it and every other buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end without a fault and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The function both programs compute, stated once over the four inputs.

  For a batch row `b`, an agent `a`, a graph node `g` and a feature slot `k` of six, the result holds
  the node's three state features in slots 0 to 2, the two coordinates of the node the agent last
  visited in slots 3 and 4, and in slot 5 the adjacency entry between that visited node and `g`.  The
  visited node is the agent's visit index read as a signed integer and clamped into the table's rows
  0 to 24.
-/
import Idealize.ShloMosaic.PureOps.Ideal
import Idealize.ShloMosaic.Lib.ValueIdx

noncomputable section

namespace Cert.Spec

open Idealize.ShloMosaic Idealize.ShloMosaic.ValueIdx

/-- The table row a visit index selects: the index read signed, negative values to row 0, values
    above 24 to row 24. -/
def row (w : BitVec 32) : Fin 25 := ⟨min w.toInt.toNat 24, by omega⟩

theorem row_val (w : BitVec 32) : (row w).val = min w.toInt.toNat 24 := rfl

/-- The result at batch row `b`, agent `a`, node `g`, slot `k`. -/
def Gc (state : (⟨3, ![65536, 25, 3]⟩ : Shape).Idx → EReal) (visit : (⟨2, ![65536, 8]⟩ : Shape).Idx → BitVec 32)
    (nodes : (⟨2, ![25, 2]⟩ : Shape).Idx → EReal) (adj : (⟨2, ![25, 25]⟩ : Shape).Idx → EReal)
    (b : Fin 65536) (a : Fin 8) (g : Fin 25) (k : Fin 6) : EReal :=
  if h : k.val < 3 then state (ix3 b g (⟨k.val, h⟩ : Fin 3))
  else if k.val = 3 then nodes (ix2 (row (visit (ix2 b a))) (0 : Fin 2))
  else if k.val = 4 then nodes (ix2 (row (visit (ix2 b a))) (1 : Fin 2))
  else adj (ix2 (row (visit (ix2 b a))) g)

/-- The whole result array, index by index. -/
def G (state : (⟨3, ![65536, 25, 3]⟩ : Shape).Idx → EReal) (visit : (⟨2, ![65536, 8]⟩ : Shape).Idx → BitVec 32)
    (nodes : (⟨2, ![25, 2]⟩ : Shape).Idx → EReal) (adj : (⟨2, ![25, 25]⟩ : Shape).Idx → EReal) :
    (⟨4, ![65536, 8, 25, 6]⟩ : Shape).Idx → EReal :=
  fun j => Gc state visit nodes adj ⟨(j 0).val, (j 0).isLt⟩ ⟨(j 1).val, (j 1).isLt⟩ ⟨(j 2).val, (j 2).isLt⟩ ⟨(j 3).val, (j 3).isLt⟩

theorem G_ix4 (state : (⟨3, ![65536, 25, 3]⟩ : Shape).Idx → EReal) (visit : (⟨2, ![65536, 8]⟩ : Shape).Idx → BitVec 32)
    (nodes : (⟨2, ![25, 2]⟩ : Shape).Idx → EReal) (adj : (⟨2, ![25, 25]⟩ : Shape).Idx → EReal)
    (b : Fin 65536) (a : Fin 8) (g : Fin 25) (k : Fin 6) :
    G state visit nodes adj (ix4 b a g k) = Gc state visit nodes adj b a g k := rfl

/-- The scatter table that places state feature `f` of node `g` (row `3 g + f`) at column `6 g + f`:
    entry one there, zero elsewhere. -/
def Ptab : (⟨2, ![75, 150]⟩ : Shape).Idx → EReal :=
  fun i => if (i 0).val / 3 = (i 1).val / 6 ∧ (i 0).val % 3 = (i 1).val % 6 then 1 else 0

/-- The gather table: row `r` holds, for every node `g`, zeros in slots 0 to 2, the coordinates of
    node `r` in slots 3 and 4, and the adjacency entry between `r` and `g` in slot 5. -/
def Ttab (nodes : (⟨2, ![25, 2]⟩ : Shape).Idx → EReal) (adj : (⟨2, ![25, 25]⟩ : Shape).Idx → EReal) :
    (⟨2, ![25, 150]⟩ : Shape).Idx → EReal :=
  fun i =>
    if (i 1).val % 6 < 3 then 0
    else if (i 1).val % 6 = 3 then nodes (ix2 (⟨(i 0).val, (i 0).isLt⟩ : Fin 25) (0 : Fin 2))
    else if (i 1).val % 6 = 4 then nodes (ix2 (⟨(i 0).val, (i 0).isLt⟩ : Fin 25) (1 : Fin 2))
    else adj (ix2 (⟨(i 0).val, (i 0).isLt⟩ : Fin 25) (⟨(i 1).val / 6, by have := (i 1).isLt; change (i 1).val < 150 at this; omega⟩ : Fin 25))

/-- The state array flattened row-major over its last two axes. -/
def stateFlat (state : (⟨3, ![65536, 25, 3]⟩ : Shape).Idx → EReal) : (⟨2, ![65536, 75]⟩ : Shape).Idx → EReal :=
  fun i => state (ix3 (⟨(i 0).val, (i 0).isLt⟩ : Fin 65536)
    (⟨(i 1).val / 3, by have := (i 1).isLt; change (i 1).val < 75 at this; omega⟩ : Fin 25)
    (⟨(i 1).val % 3, Nat.mod_lt _ (by decide)⟩ : Fin 3))

end Cert.Spec

end
-- ==== Proof.HostTables.lean ====
/-
  What the region finds in two of its computed operands at the ideal instance: the state array flattened,
  and the gather table built from the node coordinates and the adjacency rows.
-/
import proofs.«424781_j79190607003709_3_alg».proof.Proof.KernelIdealEntry
import proofs.«424781_j79190607003709_3_alg».proof.Proof.Spec
import Idealize.ShloMosaic.Lib.ValueIdx
import Idealize.ShloMosaic.Lib.Pipeline.Value
import Idealize.ShloMosaic.Lib.StableHlo.Run
import Idealize.ShloMosaic.Lib.IdealHost

noncomputable section

namespace Cert.KernelIdeal.Tables

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The state operand -/

/-- Flattening the last two axes row-major: entry `(b, n)` is the state at `(b, n / 3, n % 3)`. -/
theorem reshape_state (x : S65536x25x3.Idx → EReal) :
    shapeCast S65536x75 x shapeCasts_S65536x25x3_S65536x75 = Cert.Spec.stateFlat x := by
  funext i
  have h1 : (i 1).val < 75 := (i 1).isLt
  refine (shapeCast_apply x _ i (ix3 (⟨(i 0).val, (i 0).isLt⟩ : Fin 65536) (⟨(i 1).val / 3, by omega⟩ : Fin 25)
    (⟨(i 1).val % 3, Nat.mod_lt _ (by decide)⟩ : Fin 3)) ?_).trans rfl
  rw [Shape.rowMajor_val_three, Shape.rowMajor_val_two]
  show ((i 0).val * 25 + (i 1).val / 3) * 3 + (i 1).val % 3 = (i 0).val * 75 + (i 1).val
  omega

/-- The first operand is the state array flattened over its last two axes. -/
theorem V_state (c : Dev nD) :
    (V m c main_v0 : S65536x75.Idx → EReal) = Cert.Spec.stateFlat (m ((c : Thread nD τ).loc main_arg0)) := by
  show StableHlo.after (List.flatten [hostOps0]) (fun b => m (c, b)) (Proc.devRef .tc main_v0) = _
  simp only [List.flatten_cons, List.flatten_nil, List.append_nil]
  open Idealize.ShloMosaic.StableHlo in after_results
  exact reshape_state (m ((c : Thread nD τ).loc main_arg0))

/-! ## The gather table -/

section GatherTable

/-- The zero piece: the zero constant broadcast to `[25, 25]`, a unit axis appended. -/
abbrev zeroPiece : S25x25x1.Idx → EReal :=
  broadcastInDim S25x25x1 ![0, 1] bcast_S25x25_S25x25x1_0_1
    (broadcastInDim S25x25 ![] bcast_S_S25x25 (constant (F := Ideal) S_ .f32 0x00000000#32))

/-- The first coordinate piece: column 0 of the node table, repeated along the second axis, a unit axis appended. -/
abbrev nodePiece0 (nodes : S25x2.Idx → EReal) : S25x25x1.Idx → EReal :=
  broadcastInDim S25x25x1 ![0, 1] bcast_S25x25_S25x25x1_0_1
    (broadcastInDim S25x25 ![0, 1] bcast_S25x1_S25x25_0_1 (extractStridedSlice S25x1 ![0, 0] nodes slices_S25x2_S25x1_0_0))

/-- The second coordinate piece: column 1 of the node table likewise. -/
abbrev nodePiece1 (nodes : S25x2.Idx → EReal) : S25x25x1.Idx → EReal :=
  broadcastInDim S25x25x1 ![0, 1] bcast_S25x25_S25x25x1_0_1
    (broadcastInDim S25x25 ![0, 1] bcast_S25x1_S25x25_0_1 (extractStridedSlice S25x1 ![0, 1] nodes slices_S25x2_S25x1_0_1))

/-- The adjacency piece: the adjacency table with a unit axis appended. -/
abbrev adjPiece (adj : S25x25.Idx → EReal) : S25x25x1.Idx → EReal :=
  broadcastInDim S25x25x1 ![0, 1] bcast_S25x25_S25x25x1_0_1 adj

theorem zeroPiece_apply (r g : Fin 25) (u : Fin 1) : zeroPiece (ix3 r g u) = 0 := by
  refine (broadcastInDim_apply _ _ _ _ (ix2 r g) (fun a => match a with | ⟨0, _⟩ => rfl | ⟨1, _⟩ => rfl)).trans ?_
  refine (broadcastInDim_scalar_apply _ _ _).trans ?_
  exact Ideal.ofBits_zero_f32

theorem nodePiece0_apply (nodes : S25x2.Idx → EReal) (r g : Fin 25) (u : Fin 1) :
    nodePiece0 nodes (ix3 r g u) = nodes (ix2 r (0 : Fin 2)) := by
  refine (broadcastInDim_apply _ _ _ _ (ix2 r g) (fun a => match a with | ⟨0, _⟩ => rfl | ⟨1, _⟩ => rfl)).trans ?_
  refine (broadcastInDim_apply _ _ _ _ (ix2 r (0 : Fin 1)) (fun a => match a with | ⟨0, _⟩ => rfl | ⟨1, _⟩ => rfl)).trans ?_
  exact extractStridedSlice_apply _ _ _ _ (ix2 r (0 : Fin 2)) (fun a => match a with
    | ⟨0, _⟩ => by show r.val = 0 + r.val; omega
    | ⟨1, _⟩ => rfl)

theorem nodePiece1_apply (nodes : S25x2.Idx → EReal) (r g : Fin 25) (u : Fin 1) :
    nodePiece1 nodes (ix3 r g u) = nodes (ix2 r (1 : Fin 2)) := by
  refine (broadcastInDim_apply _ _ _ _ (ix2 r g) (fun a => match a with | ⟨0, _⟩ => rfl | ⟨1, _⟩ => rfl)).trans ?_
  refine (broadcastInDim_apply _ _ _ _ (ix2 r (0 : Fin 1)) (fun a => match a with | ⟨0, _⟩ => rfl | ⟨1, _⟩ => rfl)).trans ?_
  exact extractStridedSlice_apply _ _ _ _ (ix2 r (1 : Fin 2)) (fun a => match a with
    | ⟨0, _⟩ => by show r.val = 0 + r.val; omega
    | ⟨1, _⟩ => rfl)

theorem adjPiece_apply (adj : S25x25.Idx → EReal) (r g : Fin 25) (u : Fin 1) : adjPiece adj (ix3 r g u) = adj (ix2 r g) :=
  broadcastInDim_apply _ _ _ _ (ix2 r g) (fun a => match a with | ⟨0, _⟩ => rfl | ⟨1, _⟩ => rfl)

variable {α : Type}

/-- A concatenation of six unit-depth pieces along the last axis reads, at `(r, g, k)`, piece `k` at `(r, g, 0)`. -/
theorem concat6_apply (x0 x1 x2 x3 x4 x5 : S25x25x1.Idx → α) (r g : Fin 25) (k : Fin 6) :
    concatenate S25x25x6 2 [⟨S25x25x1, x0⟩, ⟨S25x25x1, x1⟩, ⟨S25x25x1, x2⟩, ⟨S25x25x1, x3⟩, ⟨S25x25x1, x4⟩, ⟨S25x25x1, x5⟩]
        concatenates_S25x25x1_S25x25x1_S25x25x1_S25x25x1_S25x25x1_S25x25x1_S25x25x6_d2 (ix3 r g k)
      = (![x0, x1, x2, x3, x4, x5] k) (ix3 r g (0 : Fin 1)) := by
  refine concatenate_apply_piece (2 : Fin S25x25x6.rank)
    [⟨S25x25x1, x0⟩, ⟨S25x25x1, x1⟩, ⟨S25x25x1, x2⟩, ⟨S25x25x1, x3⟩, ⟨S25x25x1, x4⟩, ⟨S25x25x1, x5⟩] _ (ix3 r g k)
    k.val k.isLt S25x25x1 (![x0, x1, x2, x3, x4, x5] k) ?_ rfl k.val ?_ (ix3 r g (0 : Fin 1)) ?_ ?_
  · fin_cases k <;> rfl
  · fin_cases k <;> rfl
  · intro b hb
    match b, hb with
    | ⟨0, _⟩, _ => rfl
    | ⟨1, _⟩, _ => rfl
    | ⟨2, _⟩, hb => exact absurd rfl hb
  · show k.val + 0 = k.val
    omega

/-- The six pieces concatenated and the last two axes flattened: entry `(r, n)` is piece `n % 6` at `(r, n / 6, 0)`. -/
theorem table_at (x0 x1 x2 x3 x4 x5 : S25x25x1.Idx → α) (i : S25x150.Idx) (k : Fin 6) (hk : (i 1).val % 6 = k.val) :
    shapeCast S25x150
        (concatenate S25x25x6 2 [⟨S25x25x1, x0⟩, ⟨S25x25x1, x1⟩, ⟨S25x25x1, x2⟩, ⟨S25x25x1, x3⟩, ⟨S25x25x1, x4⟩, ⟨S25x25x1, x5⟩]
          concatenates_S25x25x1_S25x25x1_S25x25x1_S25x25x1_S25x25x1_S25x25x1_S25x25x6_d2)
        shapeCasts_S25x25x6_S25x150 i
      = (![x0, x1, x2, x3, x4, x5] k) (ix3 (⟨(i 0).val, (i 0).isLt⟩ : Fin 25)
          (⟨(i 1).val / 6, by have h := (i 1).isLt; change (i 1).val < 150 at h; omega⟩ : Fin 25) (0 : Fin 1)) := by
  have h1 : (i 1).val < 150 := (i 1).isLt
  refine (shapeCast_apply _ _ i (ix3 (⟨(i 0).val, (i 0).isLt⟩ : Fin 25) (⟨(i 1).val / 6, by omega⟩ : Fin 25) k) ?_).trans ?_
  · rw [Shape.rowMajor_val_three, Shape.rowMajor_val_two]
    show ((i 0).val * 25 + (i 1).val / 6) * 6 + k.val = (i 0).val * 150 + (i 1).val
    omega
  · exact concat6_apply _ _ _ _ _ _ _ _ _

/-- Three zero pieces, the two coordinate pieces and the adjacency piece, concatenated and flattened, are the gather table. -/
theorem gather_table (nodes : S25x2.Idx → EReal) (adj : S25x25.Idx → EReal) (x0 x1 x2 x3 x4 x5 : S25x25x1.Idx → EReal)
    (h0 : x0 = zeroPiece) (h1 : x1 = zeroPiece) (h2 : x2 = zeroPiece)
    (h3 : x3 = nodePiece0 nodes) (h4 : x4 = nodePiece1 nodes) (h5 : x5 = adjPiece adj) :
    shapeCast S25x150
        (concatenate S25x25x6 2 [⟨S25x25x1, x0⟩, ⟨S25x25x1, x1⟩, ⟨S25x25x1, x2⟩, ⟨S25x25x1, x3⟩, ⟨S25x25x1, x4⟩, ⟨S25x25x1, x5⟩]
          concatenates_S25x25x1_S25x25x1_S25x25x1_S25x25x1_S25x25x1_S25x25x1_S25x25x6_d2)
        shapeCasts_S25x25x6_S25x150
      = Cert.Spec.Ttab nodes adj := by
  subst h0 h1 h2 h3 h4 h5
  funext i
  have hi : (i 1).val < 150 := (i 1).isLt
  have hcases : (i 1).val % 6 = 0 ∨ (i 1).val % 6 = 1 ∨ (i 1).val % 6 = 2 ∨ (i 1).val % 6 = 3 ∨ (i 1).val % 6 = 4
      ∨ (i 1).val % 6 = 5 := by omega
  unfold Cert.Spec.Ttab
  rcases hcases with h | h | h | h | h | h
  · refine (table_at _ _ _ _ _ _ i 0 h).trans ?_
    rw [if_pos (show (i 1).val % 6 < 3 by omega)]
    exact zeroPiece_apply (⟨(i 0).val, (i 0).isLt⟩ : Fin 25) (⟨(i 1).val / 6, by omega⟩ : Fin 25) (0 : Fin 1)
  · refine (table_at _ _ _ _ _ _ i 1 h).trans ?_
    rw [if_pos (show (i 1).val % 6 < 3 by omega)]
    exact zeroPiece_apply (⟨(i 0).val, (i 0).isLt⟩ : Fin 25) (⟨(i 1).val / 6, by omega⟩ : Fin 25) (0 : Fin 1)
  · refine (table_at _ _ _ _ _ _ i 2 h).trans ?_
    rw [if_pos (show (i 1).val % 6 < 3 by omega)]
    exact zeroPiece_apply (⟨(i 0).val, (i 0).isLt⟩ : Fin 25) (⟨(i 1).val / 6, by omega⟩ : Fin 25) (0 : Fin 1)
  · refine (table_at _ _ _ _ _ _ i 3 h).trans ?_
    rw [if_neg (show ¬(i 1).val % 6 < 3 by omega), if_pos h]
    exact nodePiece0_apply nodes (⟨(i 0).val, (i 0).isLt⟩ : Fin 25) (⟨(i 1).val / 6, by omega⟩ : Fin 25) (0 : Fin 1)
  · refine (table_at _ _ _ _ _ _ i 4 h).trans ?_
    rw [if_neg (show ¬(i 1).val % 6 < 3 by omega), if_neg (show ¬(i 1).val % 6 = 3 by omega), if_pos h]
    exact nodePiece1_apply nodes (⟨(i 0).val, (i 0).isLt⟩ : Fin 25) (⟨(i 1).val / 6, by omega⟩ : Fin 25) (0 : Fin 1)
  · refine (table_at _ _ _ _ _ _ i 5 h).trans ?_
    rw [if_neg (show ¬(i 1).val % 6 < 3 by omega), if_neg (show ¬(i 1).val % 6 = 3 by omega),
      if_neg (show ¬(i 1).val % 6 = 4 by omega)]
    exact adjPiece_apply adj (⟨(i 0).val, (i 0).isLt⟩ : Fin 25) (⟨(i 1).val / 6, by omega⟩ : Fin 25) (0 : Fin 1)

end GatherTable

/-! ### The pieces in the buffers -/

section Host
open Idealize.ShloMosaic.StableHlo

/-- Operations run one after the other: the later ones start from what the earlier ones leave. -/
theorem after_split (n : Nat) (l : List (HloOp τ sig (Elt Ideal))) (W : Valuation τ sig (Elt Ideal)) :
    after l W = after (l.drop n) (after (l.take n) W) := by
  have happ : ∀ (l₁ l₂ : List (HloOp τ sig (Elt Ideal))) (W : Valuation τ sig (Elt Ideal)),
      after (l₁ ++ l₂) W = after l₂ (after l₁ W) := by
    intro l₁
    induction l₁ with
    | nil => intro l₂ W; rfl
    | cons op l₁ ih => intro l₂ W; exact ih l₂ _
  rw [← happ, List.take_append_drop]

/-- The operations before the concatenation. -/
abbrev pre : List (HloOp τ sig (Elt Ideal)) := List.take 50 hostOps0

theorem pre_v36 (c : Dev nD) : after pre (fun b => m (c, b)) (Proc.devRef .tc main_v36) = zeroPiece := by
  simp only [pre, List.take_succ_cons, List.take_zero]
  after_results <;> rfl

theorem pre_v37 (c : Dev nD) : after pre (fun b => m (c, b)) (Proc.devRef .tc main_v37) = zeroPiece := by
  simp only [pre, List.take_succ_cons, List.take_zero]
  after_results <;> rfl

theorem pre_v38 (c : Dev nD) : after pre (fun b => m (c, b)) (Proc.devRef .tc main_v38) = zeroPiece := by
  simp only [pre, List.take_succ_cons, List.take_zero]
  after_results <;> rfl

theorem pre_v39 (c : Dev nD) :
    after pre (fun b => m (c, b)) (Proc.devRef .tc main_v39) = nodePiece0 (m ((c : Thread nD τ).loc main_arg2)) := by
  simp only [pre, List.take_succ_cons, List.take_zero]
  after_results <;> rfl

theorem pre_v40 (c : Dev nD) :
    after pre (fun b => m (c, b)) (Proc.devRef .tc main_v40) = nodePiece1 (m ((c : Thread nD τ).loc main_arg2)) := by
  simp only [pre, List.take_succ_cons, List.take_zero]
  after_results <;> rfl

theorem pre_v41 (c : Dev nD) :
    after pre (fun b => m (c, b)) (Proc.devRef .tc main_v41) = adjPiece (m ((c : Thread nD τ).loc main_arg3)) := by
  simp only [pre, List.take_succ_cons, List.take_zero]
  after_results <;> rfl

end Host

/-- The fourth operand is the gather table of the node coordinates and adjacency rows. -/
theorem V_T (c : Dev nD) :
    (V m c main_v43 : S25x150.Idx → EReal)
      = Cert.Spec.Ttab (m ((c : Thread nD τ).loc main_arg2)) (m ((c : Thread nD τ).loc main_arg3)) := by
  show StableHlo.after (List.flatten [hostOps0]) (fun b => m (c, b)) (Proc.devRef .tc main_v43) = _
  simp only [List.flatten_cons, List.flatten_nil, List.append_nil]
  rw [after_split 50 hostOps0]
  simp only [List.drop_succ_cons, List.drop_zero, StableHlo.after_cons, StableHlo.after_nil]
  rw [StableHlo.reshape_result, StableHlo.nary_result]
  exact gather_table _ _ _ _ _ _ _ _ (pre_v36 m c) (pre_v37 m c) (pre_v38 m c) (pre_v39 m c) (pre_v40 m c) (pre_v41 m c)

end Cert.KernelIdeal.Tables

end
-- ==== Proof.ScatterPure.lean ====
/-
  The state scatter table in closed form: the product of the node identity and the feature selector, each
  broadcast over the other's axes, flattened to a matrix, is the zero-one table that places state feature
  `f` of node `g` at column `6 g + f`.  Also the node identity read at an index.
-/
import proofs.«424781_j79190607003709_3_alg».proof.Proof.Gen.KernelIdeal
import proofs.«424781_j79190607003709_3_alg».proof.Proof.Spec
import Idealize.ShloMosaic.Lib.ValueIdx
import Idealize.ShloMosaic.Lib.Pipeline.Value
import Idealize.ShloMosaic.Lib.IdealHost
import Idealize.ShloMosaic.Lib.Affine

noncomputable section

namespace Cert.KernelIdeal.PTable

open Cert.KernelIdeal Cert.KernelIdeal.Gen
open Idealize.ShloMosaic Idealize.ShloMosaic.ValueIdx

/-- The node identity at `(g, g')`: the comparison of the two coordinates, read as a number, is one on the
    diagonal and zero off it. -/
theorem eye_apply (g g' : Fin 25) :
    uitofp (F := Ideal) .f32
        (cmpi .eq (addi (iotaInDim S25x25 32 0) (broadcastInDim S25x25 ![] bcast_S_S25x25 (constantI S_ 32 0#32)))
          (iotaInDim S25x25 32 1)) (ix2 g g')
      = if g = g' then 1 else 0 := by
  have hw : cmpi .eq (addi (iotaInDim S25x25 32 0) (broadcastInDim S25x25 ![] bcast_S_S25x25 (constantI S_ 32 0#32)))
        (iotaInDim S25x25 32 1) (ix2 g g')
      = IntOp.cmpi .eq (BitVec.ofNat 32 g.val) (BitVec.ofNat 32 g'.val) := by
    show IntOp.cmpi .eq (IntOp.addi (BitVec.ofNat 32 g.val)
        (broadcastInDim S25x25 ![] bcast_S_S25x25 (constantI S_ 32 0#32) (ix2 g g'))) (BitVec.ofNat 32 g'.val) = _
    rw [broadcastInDim_scalar_apply]
    show IntOp.cmpi .eq (BitVec.ofNat 32 g.val + 0#32) (BitVec.ofNat 32 g'.val) = _
    rw [BitVec.add_zero]
  show (((cmpi .eq (addi (iotaInDim S25x25 32 0) (broadcastInDim S25x25 ![] bcast_S_S25x25 (constantI S_ 32 0#32)))
        (iotaInDim S25x25 32 1) (ix2 g g')).toNat : ℝ) : EReal) = _
  rw [hw]
  by_cases h : g = g'
  · subst h
    rw [if_pos rfl, IntOp.cmpi_eq.2 rfl]
    norm_num
  · have hne : BitVec.ofNat 32 g.val ≠ BitVec.ofNat 32 g'.val := by
      intro he
      have hv := congrArg BitVec.toNat he
      rw [BitVec.toNat_ofNat, BitVec.toNat_ofNat] at hv
      have hg := g.isLt
      have hg' := g'.isLt
      rw [Nat.mod_eq_of_lt (by omega), Nat.mod_eq_of_lt (by omega)] at hv
      exact h (Fin.ext hv)
    rw [if_neg h, eq_zero_of_ne_one (mt IntOp.cmpi_eq.1 hne)]
    norm_num

/-- The identity broadcast over the feature axes, at `(g, f, g', k)`, is the identity at `(g, g')`. -/
theorem eye_bcast_apply (eye : S25x25.Idx → EReal) (g : Fin 25) (f : Fin 3) (g' : Fin 25) (k : Fin 6) :
    broadcastInDim S25x3x25x6 ![0, 1, 2, 3] bcast_S25x1x25x1_S25x3x25x6_0_1_2_3
        (broadcastInDim S25x1x25x1 ![0, 2] bcast_S25x25_S25x1x25x1_0_2 eye) (ix4 g f g' k) = eye (ix2 g g') := by
  refine (broadcastInDim_apply _ _ _ _ (ix4 g (0 : Fin 1) g' (0 : Fin 1)) (fun a => match a with
    | ⟨0, _⟩ => rfl | ⟨1, _⟩ => rfl | ⟨2, _⟩ => rfl | ⟨3, _⟩ => rfl)).trans ?_
  exact broadcastInDim_apply _ _ _ _ (ix2 g g') (fun a => match a with | ⟨0, _⟩ => rfl | ⟨1, _⟩ => rfl)

/-- The selector broadcast over the node axes, at `(g, f, g', k)`, is the selector at `(f, k)`. -/
theorem sel_bcast_apply (sel : S3x6.Idx → EReal) (g : Fin 25) (f : Fin 3) (g' : Fin 25) (k : Fin 6) :
    broadcastInDim S25x3x25x6 ![0, 1, 2, 3] bcast_S1x3x1x6_S25x3x25x6_0_1_2_3
        (broadcastInDim S1x3x1x6 ![1, 3] bcast_S3x6_S1x3x1x6_1_3 sel) (ix4 g f g' k) = sel (ix2 f k) := by
  refine (broadcastInDim_apply _ _ _ _ (ix4 (0 : Fin 1) f (0 : Fin 1) k) (fun a => match a with
    | ⟨0, _⟩ => rfl | ⟨1, _⟩ => rfl | ⟨2, _⟩ => rfl | ⟨3, _⟩ => rfl)).trans ?_
  exact broadcastInDim_apply _ _ _ _ (ix2 f k) (fun a => match a with | ⟨0, _⟩ => rfl | ⟨1, _⟩ => rfl)

/-- The product of the broadcast identity and the broadcast selector, flattened to `[75, 150]`: entry
    `(3 g + f, 6 g' + k)` is one when `g = g'` and `f = k`, zero otherwise. -/
theorem scatter_table (eye : S25x25.Idx → EReal) (sel : S3x6.Idx → EReal)
    (he : ∀ (g g' : Fin 25), eye (ix2 g g') = if g = g' then 1 else 0)
    (hs : ∀ (f : Fin 3) (k : Fin 6), sel (ix2 f k) = if f.val = k.val then 1 else 0) :
    shapeCast S75x150
        (mulf (F := Ideal) (φ := .f32)
          (broadcastInDim S25x3x25x6 ![0, 1, 2, 3] bcast_S25x1x25x1_S25x3x25x6_0_1_2_3
            (broadcastInDim S25x1x25x1 ![0, 2] bcast_S25x25_S25x1x25x1_0_2 eye))
          (broadcastInDim S25x3x25x6 ![0, 1, 2, 3] bcast_S1x3x1x6_S25x3x25x6_0_1_2_3
            (broadcastInDim S1x3x1x6 ![1, 3] bcast_S3x6_S1x3x1x6_1_3 sel)))
        shapeCasts_S25x3x25x6_S75x150
      = Cert.Spec.Ptab := by
  funext i
  have h0 : (i 0).val < 75 := (i 0).isLt
  have h1 : (i 1).val < 150 := (i 1).isLt
  refine (shapeCast_apply _ _ i (ix4 (⟨(i 0).val / 3, by omega⟩ : Fin 25) (⟨(i 0).val % 3, Nat.mod_lt _ (by decide)⟩ : Fin 3)
    (⟨(i 1).val / 6, by omega⟩ : Fin 25) (⟨(i 1).val % 6, Nat.mod_lt _ (by decide)⟩ : Fin 6)) ?_).trans ?_
  · rw [Shape.rowMajor_val_four, Shape.rowMajor_val_two]
    show ((((i 0).val / 3) * 3 + (i 0).val % 3) * 25 + (i 1).val / 6) * 6 + (i 1).val % 6 = (i 0).val * 150 + (i 1).val
    omega
  rw [mulf_apply, eye_bcast_apply, sel_bcast_apply, he, hs]
  show (if (⟨(i 0).val / 3, _⟩ : Fin 25) = (⟨(i 1).val / 6, _⟩ : Fin 25) then (1 : EReal) else 0)
      * (if (i 0).val % 3 = (i 1).val % 6 then (1 : EReal) else 0)
    = if (i 0).val / 3 = (i 1).val / 6 ∧ (i 0).val % 3 = (i 1).val % 6 then 1 else 0
  by_cases hg : (i 0).val / 3 = (i 1).val / 6
  · by_cases hf : (i 0).val % 3 = (i 1).val % 6
    · rw [if_pos (Fin.ext hg), if_pos hf, if_pos ⟨hg, hf⟩, one_mul]
    · rw [if_pos (Fin.ext hg), if_neg hf, if_neg (fun h => hf h.2), mul_zero]
  · rw [if_neg (fun h => hg (congrArg Fin.val h)), zero_mul, if_neg (fun h => hg h.1)]

end Cert.KernelIdeal.PTable

end
-- ==== Proof.ScatterTable.lean ====
/-
  The third operand of the region at the ideal instance: the zero-one table that places state feature `f` of
  node `g` at column `6 g + f`.  The host builds it as the product of two broadcast zero-one arrays, the
  identity pattern on the 25 nodes and a [3, 6] selector with ones at (0,0), (1,1), (2,2) that a scatter
  writes into zeros, then flattens the four axes to [75, 150].
-/
import proofs.«424781_j79190607003709_3_alg».proof.Proof.HostTables
import proofs.«424781_j79190607003709_3_alg».proof.Proof.ScatterPure

noncomputable section

namespace Cert.KernelIdeal.PTable

open Cert.KernelIdeal Cert.KernelIdeal.Gen Cert.KernelIdeal.Hand
open Idealize.ShloMosaic Idealize.ShloMosaic.TcCoe Idealize.ShloMosaic.ValueIdx Idealize.SL.Sem

/-- The scatter's start indices: row `n` holds the pair `(n, n)`, each component an iota with the
    wrap-around of a negative index applied (which never fires: an iota is non-negative). -/
abbrev scIdx : IVec S3x2 32 :=
  concatenate S3x2 1
    [⟨S3x1, broadcastInDim S3x1 ![0] bcast_S3_S3x1_0
        (select (cmpi .slt (iotaInDim S3 32 0) (broadcastInDim S3 ![] bcast_S_S3 (constantI S_ 32 0#32)))
          (addi (iotaInDim S3 32 0) (broadcastInDim S3 ![] bcast_S_S3 (constantI S_ 32 3#32))) (iotaInDim S3 32 0))⟩,
     ⟨S3x1, broadcastInDim S3x1 ![0] bcast_S3_S3x1_0
        (select (cmpi .slt (iotaInDim S3 32 0) (broadcastInDim S3 ![] bcast_S_S3 (constantI S_ 32 0#32)))
          (addi (iotaInDim S3 32 0) (broadcastInDim S3 ![] bcast_S_S3 (constantI S_ 32 6#32))) (iotaInDim S3 32 0))⟩]
    concatenates_S3x1_S3x1_S3x2_d1

/-- Update `n` of the scatter lands at entry `(n, n)` of the [3, 6] operand. -/
theorem scIdx_lands : ∀ n : Fin 3, scatter_S3x6_S3x2_S3_n_01_01_1.resultIdx? (S3.rowMajor.symm (n.cast (by decide))) scIdx
    = some (ix2 (⟨n.val, n.isLt⟩ : Fin 3) (⟨n.val, by omega⟩ : Fin 6)) := by
  decide

theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- The [3, 6] selector: zeros with ones scattered at `(0, 0)`, `(1, 1)`, `(2, 2)`. -/
abbrev selT : S3x6.Idx → EReal :=
  Host.scatter scatter_S3x6_S3x2_S3_n_01_01_1 (fun _ b => b)
    (broadcastInDim S3x6 ![] bcast_S_S3x6 (constant (F := Ideal) S_ .f32 0x00000000#32)) scIdx
    (broadcastInDim S3 ![] bcast_S_S3 (constant (F := Ideal) S_ .f32 0x3F800000#32))

theorem finRange3 : List.finRange S3.numel = [(0 : Fin 3).cast (by decide), (1 : Fin 3).cast (by decide), (2 : Fin 3).cast (by decide)] := by
  decide

/-- The selector has a one exactly where the row equals the column. -/
theorem sel_apply (f : Fin 3) (k : Fin 6) : selT (ix2 f k) = if f.val = k.val then 1 else 0 := by
  unfold selT Host.scatter
  rw [finRange3]
  simp only [List.foldl_cons, List.foldl_nil]
  rw [scIdx_lands 0, scIdx_lands 1, scIdx_lands 2]
  dsimp only
  have hz : ∀ j, broadcastInDim S3x6 ![] bcast_S_S3x6 (constant (F := Ideal) S_ .f32 0x00000000#32) j = 0 :=
    fun j => (broadcastInDim_scalar_apply _ _ j).trans Ideal.ofBits_zero_f32
  have ho : ∀ j, broadcastInDim S3 ![] bcast_S_S3 (constant (F := Ideal) S_ .f32 0x3F800000#32) j = 1 :=
    fun j => (broadcastInDim_scalar_apply _ _ j).trans Ideal.ofBits_one_f32
  simp only [hz, ho]
  simp only [ix2_eq_iff]
  fin_cases f <;> fin_cases k <;> simp (config := {decide := true})

variable (m : (ℓ : Loc nD τ sig) → Buf (Elt Ideal) ℓ)

/-- The identity pattern on the 25 nodes as a zero-one array: one where the row iota equals the column iota. -/
abbrev eyeT : S25x25.Idx → EReal :=
  uitofp (F := Ideal) .f32 (cmpi .eq (addi (iotaInDim S25x25 32 0) (broadcastInDim S25x25 ![] bcast_S_S25x25 (constantI S_ 32 0#32)))
    (iotaInDim S25x25 32 1))

section Host
open Idealize.ShloMosaic.StableHlo

/-- The operations up to and including the scatter. -/
abbrev pre32 : List (HloOp τ sig (Elt Ideal)) := List.take 32 hostOps0

theorem pre32_v6 (c : Dev nD) : after pre32 (fun b => m (c, b)) (Proc.devRef .tc main_v6) = eyeT := by
  simp only [pre32, List.take_succ_cons, List.take_zero]
  after_results <;> rfl

theorem pre32_v24 (c : Dev nD) : after pre32 (fun b => m (c, b)) (Proc.devRef .tc main_v24) = selT := by
  simp only [pre32, List.take_succ_cons, List.take_zero]
  after_results <;> rfl

end Host

end Cert.KernelIdeal.PTable

namespace Cert.KernelIdeal.Tables

open Cert.KernelIdeal Cert.KernelIdeal.Gen Cert.KernelIdeal.Hand Cert.KernelIdeal.PTable
open Idealize.ShloMosaic Idealize.ShloMosaic.TcCoe Idealize.ShloMosaic.ValueIdx Idealize.SL.Sem

variable (m : (ℓ : Loc nD τ sig) → Buf (Elt Ideal) ℓ)

set_option maxHeartbeats 1000000 in
/-- The third operand is the zero-one scatter table. -/
theorem V_P (c : Dev nD) : (V m c main_v30 : S75x150.Idx → EReal) = Cert.Spec.Ptab := by
  show StableHlo.after (List.flatten [hostOps0]) (fun b => m (c, b)) (Proc.devRef .tc main_v30) = _
  simp only [List.flatten_cons, List.flatten_nil, List.append_nil]
  rw [after_split 32 hostOps0]
  have h6 := pre32_v6 m c
  have h24 := pre32_v24 m c
  generalize StableHlo.after (List.take 32 hostOps0) (fun b => m (c, b)) = F at h6 h24 ⊢
  simp only [List.drop_succ_cons, List.drop_zero]
  open Idealize.ShloMosaic.StableHlo in after_results
  rw [h6, h24]
  exact scatter_table eyeT selT eye_apply sel_apply

end Cert.KernelIdeal.Tables

end
-- ==== Proof.SlabEntry.lean ====
/-
  One entry of the output tile at the ideal instance: in column slab `a`, column `q` of the slab, the body
  leaves the state row's product with column `q` of the third operand plus the one-hot row of the clamped
  visit index of agent `a` times column `q` of the fourth operand.
-/
import proofs.«424781_j79190607003709_3_alg».proof.Proof.KernelIdealTile
import proofs.«424781_j79190607003709_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Slab

open Cert.KernelIdeal Cert.KernelIdeal.Gen Cert.KernelIdeal.Hand
open Idealize.ShloMosaic Idealize.ShloMosaic.ValueIdx
open scoped BigOperators

/-! ## A block product into the zero block, read at an entry

For each of the two products the operand indices at output entry `(r, q)` and contraction position `k` are
`(r, k)` and `(k, q)`, one axis at a time; the product is then the sum over the contracted coordinate. -/

theorem lhs25_0 (r : Fin 2048) (q : Fin 150) (k : dot_S2048x25_S25x150_S2048x150_1_0_0_1_n_n.contr.Idx) :
    (dot_S2048x25_S25x150_S2048x150_1_0_0_1_n_n.lhsIdx (ix2 r q) k 0).val = r.val := by
  unfold DotDims.lhsIdx
  rw [dif_neg (show ¬(0 : Fin S2048x25.rank) ∈ dot_S2048x25_S25x150_S2048x150_1_0_0_1_n_n.lhsBatch by decide),
    dif_pos (show (0 : Fin S2048x25.rank) ∈ dot_S2048x25_S25x150_S2048x150_1_0_0_1_n_n.lhsNonContracting by decide)]
  rfl

theorem lhs25_1 (r : Fin 2048) (q : Fin 150) (k : dot_S2048x25_S25x150_S2048x150_1_0_0_1_n_n.contr.Idx) :
    (dot_S2048x25_S25x150_S2048x150_1_0_0_1_n_n.lhsIdx (ix2 r q) k 1).val = (k ⟨0, by decide⟩).val :=
  DotDims.lhsIdx_val_of_single dot_S2048x25_S25x150_S2048x150_1_0_0_1_n_n (cl := 1) rfl (ix2 r q) k

theorem rhs25_0 (r : Fin 2048) (q : Fin 150) (k : dot_S2048x25_S25x150_S2048x150_1_0_0_1_n_n.contr.Idx) :
    (dot_S2048x25_S25x150_S2048x150_1_0_0_1_n_n.rhsIdx (ix2 r q) k 0).val = (k ⟨0, by decide⟩).val :=
  DotDims.rhsIdx_val_of_single dot_S2048x25_S25x150_S2048x150_1_0_0_1_n_n (cr := 0) rfl (ix2 r q) k

theorem rhs25_1 (r : Fin 2048) (q : Fin 150) (k : dot_S2048x25_S25x150_S2048x150_1_0_0_1_n_n.contr.Idx) :
    (dot_S2048x25_S25x150_S2048x150_1_0_0_1_n_n.rhsIdx (ix2 r q) k 1).val = q.val := by
  unfold DotDims.rhsIdx
  rw [dif_neg (show ¬(1 : Fin S25x150.rank) ∈ dot_S2048x25_S25x150_S2048x150_1_0_0_1_n_n.rhsBatch by decide),
    dif_pos (show (1 : Fin S25x150.rank) ∈ dot_S2048x25_S25x150_S2048x150_1_0_0_1_n_n.rhsNonContracting by decide)]
  rfl

/-- A product into the zero block, read at an entry: the sum over the contracted coordinate. -/
theorem mm25_apply (A : FVec Ideal S2048x25 .f32) (B : FVec Ideal S25x150 .f32) (r : Fin 2048) (q : Fin 150) :
    matmul dot_S2048x25_S25x150_S2048x150_1_0_0_1_n_n (some .fp32) A B (constant (F := Ideal) S2048x150 .f32 0x00000000#32) (ix2 r q)
      = ∑ j : Fin 25, A (ix2 r j) * B (ix2 j q) := by
  refine (Ideal.matmul_constant_zero_apply dot_S2048x25_S25x150_S2048x150_1_0_0_1_n_n (some .fp32) A B (ix2 r q)).trans ?_
  rw [← Equiv.sum_comp (contrEquiv1 dot_S2048x25_S25x150_S2048x150_1_0_0_1_n_n 25 rfl rfl).symm]
  refine Finset.sum_congr rfl fun j _ => ?_
  have hk := contrEquiv1_symm_val dot_S2048x25_S25x150_S2048x150_1_0_0_1_n_n 25 rfl rfl j
  have hl : dot_S2048x25_S25x150_S2048x150_1_0_0_1_n_n.lhsIdx (ix2 r q) ((contrEquiv1 dot_S2048x25_S25x150_S2048x150_1_0_0_1_n_n 25 rfl rfl).symm j) = ix2 r j := by
    funext ax; apply Fin.ext
    match ax with
    | ⟨0, _⟩ => exact lhs25_0 _ _ _
    | ⟨1, _⟩ => exact (lhs25_1 _ _ _).trans hk
  have hr : dot_S2048x25_S25x150_S2048x150_1_0_0_1_n_n.rhsIdx (ix2 r q) ((contrEquiv1 dot_S2048x25_S25x150_S2048x150_1_0_0_1_n_n 25 rfl rfl).symm j) = ix2 j q := by
    funext ax; apply Fin.ext
    match ax with
    | ⟨0, _⟩ => exact (rhs25_0 _ _ _).trans hk
    | ⟨1, _⟩ => exact rhs25_1 _ _ _
  rw [hl, hr]

theorem lhs75_0 (r : Fin 2048) (q : Fin 150) (k : dot_S2048x75_S75x150_S2048x150_1_0_0_1_n_n.contr.Idx) :
    (dot_S2048x75_S75x150_S2048x150_1_0_0_1_n_n.lhsIdx (ix2 r q) k 0).val = r.val := by
  unfold DotDims.lhsIdx
  rw [dif_neg (show ¬(0 : Fin S2048x75.rank) ∈ dot_S2048x75_S75x150_S2048x150_1_0_0_1_n_n.lhsBatch by decide),
    dif_pos (show (0 : Fin S2048x75.rank) ∈ dot_S2048x75_S75x150_S2048x150_1_0_0_1_n_n.lhsNonContracting by decide)]
  rfl

theorem lhs75_1 (r : Fin 2048) (q : Fin 150) (k : dot_S2048x75_S75x150_S2048x150_1_0_0_1_n_n.contr.Idx) :
    (dot_S2048x75_S75x150_S2048x150_1_0_0_1_n_n.lhsIdx (ix2 r q) k 1).val = (k ⟨0, by decide⟩).val :=
  DotDims.lhsIdx_val_of_single dot_S2048x75_S75x150_S2048x150_1_0_0_1_n_n (cl := 1) rfl (ix2 r q) k

theorem rhs75_0 (r : Fin 2048) (q : Fin 150) (k : dot_S2048x75_S75x150_S2048x150_1_0_0_1_n_n.contr.Idx) :
    (dot_S2048x75_S75x150_S2048x150_1_0_0_1_n_n.rhsIdx (ix2 r q) k 0).val = (k ⟨0, by decide⟩).val :=
  DotDims.rhsIdx_val_of_single dot_S2048x75_S75x150_S2048x150_1_0_0_1_n_n (cr := 0) rfl (ix2 r q) k

theorem rhs75_1 (r : Fin 2048) (q : Fin 150) (k : dot_S2048x75_S75x150_S2048x150_1_0_0_1_n_n.contr.Idx) :
    (dot_S2048x75_S75x150_S2048x150_1_0_0_1_n_n.rhsIdx (ix2 r q) k 1).val = q.val := by
  unfold DotDims.rhsIdx
  rw [dif_neg (show ¬(1 : Fin S75x150.rank) ∈ dot_S2048x75_S75x150_S2048x150_1_0_0_1_n_n.rhsBatch by decide),
    dif_pos (show (1 : Fin S75x150.rank) ∈ dot_S2048x75_S75x150_S2048x150_1_0_0_1_n_n.rhsNonContracting by decide)]
  rfl

/-- A product into the zero block, read at an entry: the sum over the contracted coordinate. -/
theorem mm75_apply (A : FVec Ideal S2048x75 .f32) (B : FVec Ideal S75x150 .f32) (r : Fin 2048) (q : Fin 150) :
    matmul dot_S2048x75_S75x150_S2048x150_1_0_0_1_n_n (some .fp32) A B (constant (F := Ideal) S2048x150 .f32 0x00000000#32) (ix2 r q)
      = ∑ j : Fin 75, A (ix2 r j) * B (ix2 j q) := by
  refine (Ideal.matmul_constant_zero_apply dot_S2048x75_S75x150_S2048x150_1_0_0_1_n_n (some .fp32) A B (ix2 r q)).trans ?_
  rw [← Equiv.sum_comp (contrEquiv1 dot_S2048x75_S75x150_S2048x150_1_0_0_1_n_n 75 rfl rfl).symm]
  refine Finset.sum_congr rfl fun j _ => ?_
  have hk := contrEquiv1_symm_val dot_S2048x75_S75x150_S2048x150_1_0_0_1_n_n 75 rfl rfl j
  have hl : dot_S2048x75_S75x150_S2048x150_1_0_0_1_n_n.lhsIdx (ix2 r q) ((contrEquiv1 dot_S2048x75_S75x150_S2048x150_1_0_0_1_n_n 75 rfl rfl).symm j) = ix2 r j := by
    funext ax; apply Fin.ext
    match ax with
    | ⟨0, _⟩ => exact lhs75_0 _ _ _
    | ⟨1, _⟩ => exact (lhs75_1 _ _ _).trans hk
  have hr : dot_S2048x75_S75x150_S2048x150_1_0_0_1_n_n.rhsIdx (ix2 r q) ((contrEquiv1 dot_S2048x75_S75x150_S2048x150_1_0_0_1_n_n 75 rfl rfl).symm j) = ix2 j q := by
    funext ax; apply Fin.ext
    match ax with
    | ⟨0, _⟩ => exact (rhs75_0 _ _ _).trans hk
    | ⟨1, _⟩ => exact rhs75_1 _ _ _
  rw [hl, hr]

/-! ## The one-hot row of a clamped visit index

The signed clamp of a word into `[0, 24]` equals the lane number `j` exactly when the word's table row is `j`;
the comparison's bit, widened and converted, is then `1` or `0`. -/

theorem clamp_eq_iff (w : BitVec 32) (j : Fin 25) :
    IntOp.minsi 24#32 (IntOp.maxsi 0#32 w) = BitVec.ofNat 32 j.val ↔ Cert.Spec.row w = j := by
  have hj := j.isLt
  have h24 : (24#32 : BitVec 32).toInt = 24 := by decide
  have h0 : (0#32 : BitVec 32).toInt = 0 := by decide
  have hwI := BitVec.toInt_eq_toNat_cond w
  have hwlt := w.isLt
  have e1 : IntOp.maxsi 0#32 w = if w.toInt < 0 then 0#32 else w := by
    unfold IntOp.maxsi; simp only [BitVec.slt, h0, decide_eq_true_eq]
  have e2 : ∀ m : BitVec 32, IntOp.minsi 24#32 m = if 24 < m.toInt then 24#32 else m := by
    intro m; unfold IntOp.minsi; simp only [BitVec.slt, h24, decide_eq_true_eq]
  rw [Fin.ext_iff, Cert.Spec.row_val, ← BitVec.toNat_inj, BitVec.toNat_ofNat, e1, e2]
  split_ifs with a b c
  · rw [h0] at b; omega
  · simp only [BitVec.toNat_ofNat]; omega
  · simp only [BitVec.toNat_ofNat]; omega
  · omega

/-- The one-hot row of a clamped visit index, read at an entry. -/
theorem onehot_apply (col : Vec Ideal S2048x1 .i32) (r : Fin 2048) (j : Fin 25) :
    (sitofp .f32 (extui 32 (cmpi .eq (broadcastTo S2048x25 (minsi (broadcast S2048x1 24#32)
        (maxsi (broadcast S2048x1 0#32) col)) broadcasts_S2048x1_S2048x25) laneIota) natLt_1_32) : FVec Ideal S2048x25 .f32) (ix2 r j)
      = if Cert.Spec.row (col (ix2 r (0 : Fin 1))) = j then (1 : EReal) else 0 := by
  have hb := broadcastTo_apply (minsi (broadcast S2048x1 24#32) (maxsi (broadcast S2048x1 0#32) col))
    broadcasts_S2048x1_S2048x25 (ix2 r j) (ix2 r (0 : Fin 1)) (by
      intro a
      match a with
      | ⟨0, _⟩ => rfl
      | ⟨1, _⟩ => rfl)
  have hi : laneIota (ix2 r j) = BitVec.ofNat 32 j.val :=
    iota_single_apply .tc S2048x25 32 1 iota_S2048x25_d1_w32 (ix2 r j)
  rw [sitofp_apply, extui_apply]
  show FloatOps.sitofp (F := Ideal) .f32 ((IntOp.cmpi .eq (broadcastTo S2048x25 (minsi (broadcast S2048x1 24#32)
        (maxsi (broadcast S2048x1 0#32) col)) broadcasts_S2048x1_S2048x25 (ix2 r j)) (laneIota (ix2 r j))).setWidth 32) = _
  rw [hb, hi]
  show ((((IntOp.cmpi .eq (IntOp.minsi 24#32 (IntOp.maxsi 0#32 (col (ix2 r (0 : Fin 1))))) (BitVec.ofNat 32 j.val)).setWidth 32).toInt : ℝ) : EReal) = _
  by_cases h : Cert.Spec.row (col (ix2 r (0 : Fin 1))) = j
  · rw [if_pos h, (clamp_eq_iff _ j).mpr h]
    have : ((IntOp.cmpi .eq (BitVec.ofNat 32 j.val) (BitVec.ofNat 32 j.val)).setWidth 32).toInt = 1 := by
      unfold IntOp.cmpi
      simp
    rw [this]
    norm_num
  · rw [if_neg h]
    have hne := mt (clamp_eq_iff (col (ix2 r (0 : Fin 1))) j).mp h
    have : ((IntOp.cmpi .eq (IntOp.minsi 24#32 (IntOp.maxsi 0#32 (col (ix2 r (0 : Fin 1))))) (BitVec.ofNat 32 j.val)).setWidth 32).toInt = 0 := by
      unfold IntOp.cmpi
      have hbeq : (IntOp.minsi 24#32 (IntOp.maxsi 0#32 (col (ix2 r (0 : Fin 1)))) == BitVec.ofNat 32 j.val) = false :=
        beq_eq_false_iff_ne.mpr hne
      simp only [hbeq]
      decide
    rw [this]
    norm_num

/-! ## The arithmetic the eight slabs share -/

/-- The arithmetic every slab shares: the state product block plus the one-hot rows of one index column times the
    gather table, into the zero block. -/
def slabVal (v5 : FVec Ideal S25x150 .f32) (v6 : FVec Ideal S2048x150 .f32) (col : Vec Ideal S2048x1 .i32) :
    FVec Ideal S2048x150 .f32 :=
  addf v6 (matmul dot_S2048x25_S25x150_S2048x150_1_0_0_1_n_n (some .fp32)
    (sitofp .f32 (extui 32 (cmpi .eq (broadcastTo S2048x25 (minsi (broadcast S2048x1 24#32)
        (maxsi (broadcast S2048x1 0#32) col)) broadcasts_S2048x1_S2048x25) laneIota) natLt_1_32))
    v5 (constant (F := Ideal) S2048x150 .f32 0x00000000#32))

/-- The shared arithmetic at an entry. -/
theorem slabVal_apply (v5 : FVec Ideal S25x150 .f32) (v6 : FVec Ideal S2048x150 .f32) (col : Vec Ideal S2048x1 .i32)
    (r : Fin 2048) (q : Fin 150) :
    slabVal v5 v6 col (ix2 r q)
      = v6 (ix2 r q) + ∑ j : Fin 25, (if Cert.Spec.row (col (ix2 r (0 : Fin 1))) = j then (1 : EReal) else 0) * v5 (ix2 j q) := by
  unfold slabVal
  rw [addf_apply, mm25_apply]
  refine congrArg (v6 (ix2 r q) + ·) (Finset.sum_congr rfl fun j _ => ?_)
  rw [onehot_apply]

/-! Each of the eight stored values is the shared arithmetic. -/

theorem pay1_eq (v5 : FVec Ideal S25x150 .f32) (v6 : FVec Ideal S2048x150 .f32) (col : Vec Ideal S2048x1 .i32) :
    k0_pay1 v5 v6 laneIota col 0#32 = slabVal v5 v6 col := rfl
theorem pay2_eq (v5 : FVec Ideal S25x150 .f32) (v6 : FVec Ideal S2048x150 .f32) (col : Vec Ideal S2048x1 .i32) :
    k0_pay2 v5 v6 laneIota col = slabVal v5 v6 col := rfl
theorem pay3_eq (v5 : FVec Ideal S25x150 .f32) (v6 : FVec Ideal S2048x150 .f32) (col : Vec Ideal S2048x1 .i32) :
    k0_pay3 v5 v6 laneIota col = slabVal v5 v6 col := rfl
theorem pay8_eq (v5 : FVec Ideal S25x150 .f32) (v6 : FVec Ideal S2048x150 .f32) (col : Vec Ideal S2048x1 .i32) :
    k0_pay8 v5 v6 laneIota col 0#32 = slabVal v5 v6 col := rfl
theorem pay9_eq (v5 : FVec Ideal S25x150 .f32) (v6 : FVec Ideal S2048x150 .f32) (col : Vec Ideal S2048x1 .i32) :
    k0_pay9 v5 v6 laneIota col = slabVal v5 v6 col := rfl
theorem pay10_eq (v5 : FVec Ideal S25x150 .f32) (v6 : FVec Ideal S2048x150 .f32) (col : Vec Ideal S2048x1 .i32) :
    k0_pay10 v5 v6 laneIota col = slabVal v5 v6 col := rfl
theorem pay6_eq (v0 : Vec Ideal S2048x75 .f32) (v2 : Vec Ideal S75x150 .f32) (v4 : Vec Ideal S25x150 .f32)
    (col : Vec Ideal S2048x1 .i32) : k0_pay6 v0 v2 v4 col = slabVal (k0_pay4 v4) (k0_pay5 v0 v2) col := rfl
theorem pay7_eq (v0 : Vec Ideal S2048x75 .f32) (v2 : Vec Ideal S75x150 .f32) (v4 : Vec Ideal S25x150 .f32)
    (col : Vec Ideal S2048x1 .i32) : k0_pay7 v0 v2 v4 col = slabVal (k0_pay4 v4) (k0_pay5 v0 v2) col := rfl

/-- The gather table passes through its cast to the same shape. -/
theorem pay4_eq (v4 : Vec Ideal S25x150 .f32) : k0_pay4 v4 = v4 := by
  unfold k0_pay4
  exact shapeCast_self v4 shapeCasts_S25x150_S25x150

/-- The state product block at an entry. -/
theorem pay5_apply (v0 : Vec Ideal S2048x75 .f32) (v2 : Vec Ideal S75x150 .f32) (r : Fin 2048) (q : Fin 150) :
    k0_pay5 v0 v2 (ix2 r q) = ∑ k : Fin 75, v0 (ix2 r k) * v2 (ix2 k q) := by
  unfold k0_pay5
  rw [shapeCast_self v0 shapeCasts_S2048x75_S2048x75, shapeCast_self v2 shapeCasts_S75x150_S75x150]
  exact mm75_apply v0 v2 r q

/-! ## The eight stores read back as one function of the tile's index -/

/-- The entry the body leaves, from the row, the slab and the column within the slab. -/
def slabF (x0 : Vec Ideal S2048x75 .f32) (x1 : Vec Ideal S2048x8 .i32) (x2 : Vec Ideal S75x150 .f32)
    (x3 : Vec Ideal S25x150 .f32) (r : Fin 2048) (a : Fin 8) (q : Fin 150) : EReal :=
  (∑ k : Fin 75, x0 (ix2 r k) * x2 (ix2 k q))
    + (∑ j : Fin 25, (if Cert.Spec.row (x1 (ix2 r a)) = j then (1 : EReal) else 0) * x3 (ix2 j q))

/-- The whole tile as one function of its index: column `c` lies in slab `c / 150` at column `c % 150` of it. -/
def tileF (x0 : Vec Ideal S2048x75 .f32) (x1 : Vec Ideal S2048x8 .i32) (x2 : Vec Ideal S75x150 .f32)
    (x3 : Vec Ideal S25x150 .f32) : S2048x1200.Idx → EReal := fun y =>
  slabF x0 x1 x2 x3 ⟨(y 0).val, idx2_lt0 y⟩ ⟨(y 1).val / 150, by have := idx2_lt1 y; omega⟩
    ⟨(y 1).val % 150, Nat.mod_lt _ (by decide)⟩

/-- The tile function at an index whose coordinates are row `r` and column `150 a + q`. -/
theorem tileF_apply (x0 : Vec Ideal S2048x75 .f32) (x1 : Vec Ideal S2048x8 .i32) (x2 : Vec Ideal S75x150 .f32)
    (x3 : Vec Ideal S25x150 .f32) (y : S2048x1200.Idx) (r : Fin 2048) (a : Fin 8) (q : Fin 150)
    (h0 : (y 0).val = r.val) (h1 : (y 1).val = 150 * a.val + q.val) :
    tileF x0 x1 x2 x3 y = slabF x0 x1 x2 x3 r a q := by
  unfold tileF
  have e0 : (⟨(y 0).val, idx2_lt0 y⟩ : Fin 2048) = r := Fin.ext h0
  have ea : (⟨(y 1).val / 150, by have := idx2_lt1 y; omega⟩ : Fin 8) = a :=
    Fin.ext (by show (y 1).val / 150 = a.val; have := q.isLt; omega)
  have eq : (⟨(y 1).val % 150, Nat.mod_lt _ (by decide)⟩ : Fin 150) = q :=
    Fin.ext (by show (y 1).val % 150 = q.val; have := q.isLt; omega)
  rw [e0, ea, eq]

theorem zero2 : (![0, 0] : Fin 2 → ℕ) = fun _ => 0 := by
  funext a
  match a with
  | ⟨0, _⟩ => rfl
  | ⟨1, _⟩ => rfl

/-- Column `a` of the index block, loaded as a block of one column, reads the block's column `a`. -/
theorem ldcol (x1 : Vec Ideal S2048x8 .i32) (a : Fin 8)
    (inb : ∀ ax, (![0, a.val] : Fin 2 → ℕ) ax + S2048x1.size ax ≤ S2048x8.size ax) (r : Fin 2048) :
    View.ld x1 (Rect.unit (s := S2048x8) ![0, a.val] S2048x1.size inb) (ix2 r (0 : Fin 1)) = x1 (ix2 r a) := by
  refine congrArg x1 (funext fun ax => Fin.ext ?_)
  match ax with
  | ⟨0, _⟩ => show 0 + 1 * r.val = r.val; omega
  | ⟨1, _⟩ => show a.val + 1 * 0 = a.val; omega

/-- One slab's stored value, at the slab's own index, is the tile function at the index's place in the tile. -/
theorem piece_eq (x0 : Vec Ideal S2048x75 .f32) (x1 : Vec Ideal S2048x8 .i32) (x2 : Vec Ideal S75x150 .f32)
    (x3 : Vec Ideal S25x150 .f32) (a : Fin 8) (off : Fin 2 → ℕ) (h0 : off 0 = 0) (h1 : off 1 = 150 * a.val)
    (inb : ∀ ax, off ax + S2048x150.size ax ≤ S2048x1200.size ax)
    (col : Vec Ideal S2048x1 .i32) (hcol : ∀ r : Fin 2048, col (ix2 r (0 : Fin 1)) = x1 (ix2 r a))
    (r : Fin 2048) (q : Fin 150) :
    slabVal (k0_pay4 (View.ld x3 rT)) (k0_pay5 (View.ld x0 rS) (View.ld x2 rP)) col (ix2 r q)
      = tileF x0 x1 x2 x3 ((Rect.unit (s := S2048x1200) off S2048x150.size inb).emb (ix2 r q)) := by
  rw [slabVal_apply, pay5_apply, pay4_eq, hcol r,
    View.ld_unit_zero (S := S2048x75) zero2, View.ld_unit_zero (S := S75x150) zero2,
    View.ld_unit_zero (S := S25x150) zero2]
  refine (tileF_apply x0 x1 x2 x3 _ r a q ?_ ?_).symm
  · show off 0 + 1 * r.val = r.val
    omega
  · show off 1 + 1 * q.val = 150 * a.val + q.val
    omega

/-- The tile's entry at row `r`, column `150 a + q`. -/
theorem outTile_slab (x0 : Vec Ideal S2048x75 .f32) (x1 : Vec Ideal S2048x8 .i32) (x2 : Vec Ideal S75x150 .f32)
    (x3 : Vec Ideal S25x150 .f32) (r : Fin 2048) (a : Fin 8) (q : Fin 150) :
    outTile (F := Ideal) x0 x1 x2 x3 (ix2 r (⟨150 * a.val + q.val, by omega⟩ : Fin 1200))
      = (∑ k : Fin 75, x0 (ix2 r k) * x2 (ix2 k q))
        + (∑ j : Fin 25, (if Cert.Spec.row (x1 (ix2 r a)) = j then (1 : EReal) else 0) * x3 (ix2 j q)) := by
  unfold outTile
  refine (View.canon_apply_of_pieces (tileF x0 x1 x2 x3) _ ?_ _ (outTile_cover (F := Ideal) _ _ _ _ _ _ _ _ _)).trans ?_
  · intro p hp x
    simp only [List.mem_cons, List.not_mem_nil, or_false] at hp
    rcases hp with rfl | rfl | rfl | rfl | rfl | rfl | rfl | rfl
    · obtain ⟨r', q', rfl⟩ : ∃ (r' : Fin 2048) (q' : Fin 150), x = ix2 r' q' := ⟨x 0, x 1, eq_ix2 x⟩
      rw [pay3_eq]
      exact piece_eq x0 x1 x2 x3 7 ![0, 1050] rfl rfl inb_S2048x1200_S2048x150_0_1050 _
        (ldcol x1 7 inb_S2048x8_S2048x1_0_7) r' q'
    · obtain ⟨r', q', rfl⟩ : ∃ (r' : Fin 2048) (q' : Fin 150), x = ix2 r' q' := ⟨x 0, x 1, eq_ix2 x⟩
      rw [pay2_eq]
      exact piece_eq x0 x1 x2 x3 6 ![0, 900] rfl rfl inb_S2048x1200_S2048x150_0_900 _
        (ldcol x1 6 inb_S2048x8_S2048x1_0_6) r' q'
    · obtain ⟨r', q', rfl⟩ : ∃ (r' : Fin 2048) (q' : Fin 150), x = ix2 r' q' := ⟨x 0, x 1, eq_ix2 x⟩
      rw [pay1_eq]
      exact piece_eq x0 x1 x2 x3 5 ![0, 750] rfl rfl inb_S2048x1200_S2048x150_0_750 _
        (ldcol x1 5 inb_S2048x8_S2048x1_0_5) r' q'
    · obtain ⟨r', q', rfl⟩ : ∃ (r' : Fin 2048) (q' : Fin 150), x = ix2 r' q' := ⟨x 0, x 1, eq_ix2 x⟩
      rw [pay10_eq]
      exact piece_eq x0 x1 x2 x3 4 ![0, 600] rfl rfl inb_S2048x1200_S2048x150_0_600 _
        (ldcol x1 4 inb_S2048x8_S2048x1_0_4) r' q'
    · obtain ⟨r', q', rfl⟩ : ∃ (r' : Fin 2048) (q' : Fin 150), x = ix2 r' q' := ⟨x 0, x 1, eq_ix2 x⟩
      rw [pay9_eq]
      exact piece_eq x0 x1 x2 x3 3 ![0, 450] rfl rfl inb_S2048x1200_S2048x150_0_450 _
        (ldcol x1 3 inb_S2048x8_S2048x1_0_3) r' q'
    · obtain ⟨r', q', rfl⟩ : ∃ (r' : Fin 2048) (q' : Fin 150), x = ix2 r' q' := ⟨x 0, x 1, eq_ix2 x⟩
      rw [pay8_eq]
      exact piece_eq x0 x1 x2 x3 2 ![0, 300] rfl rfl inb_S2048x1200_S2048x150_0_300 _
        (ldcol x1 2 inb_S2048x8_S2048x1_0_2) r' q'
    · obtain ⟨r', q', rfl⟩ : ∃ (r' : Fin 2048) (q' : Fin 150), x = ix2 r' q' := ⟨x 0, x 1, eq_ix2 x⟩
      rw [pay7_eq]
      exact piece_eq x0 x1 x2 x3 1 ![0, 150] rfl rfl inb_S2048x1200_S2048x150_0_150 _
        (ldcol x1 1 inb_S2048x8_S2048x1_0_1) r' q'
    · obtain ⟨r', q', rfl⟩ : ∃ (r' : Fin 2048) (q' : Fin 150), x = ix2 r' q' := ⟨x 0, x 1, eq_ix2 x⟩
      rw [pay6_eq]
      exact piece_eq x0 x1 x2 x3 0 ![0, 0] rfl rfl inb_S2048x1200_S2048x150_0_0 _
        (ldcol x1 0 inb_S2048x8_S2048x1_0_0) r' q'
  · exact tileF_apply x0 x1 x2 x3 _ r a q rfl rfl

end Cert.KernelIdeal.Slab

end
-- ==== Proof.SlabSums.lean ====
/-
  The two sums of a slab entry collapse: against the zero-one scatter table the state product picks one
  state feature (or nothing), and against a one-hot row the gather product picks one table row.
-/
import proofs.«424781_j79190607003709_3_alg».proof.Proof.Spec
import Idealize.ShloMosaic.Lib.ValueIdx

noncomputable section

namespace Cert.Spec

open Idealize.ShloMosaic Idealize.ShloMosaic.ValueIdx
open scoped BigOperators

/-- The scatter table read at explicit coordinates. -/
theorem Ptab_ix2 (i : Fin 75) (c : Fin 150) :
    Ptab (ix2 i c) = if i.val / 3 = c.val / 6 ∧ i.val % 3 = c.val % 6 then 1 else 0 := rfl

/-- The gather table read at explicit coordinates. -/
theorem Ttab_ix2 (nodes : (⟨2, ![25, 2]⟩ : Shape).Idx → EReal) (adj : (⟨2, ![25, 25]⟩ : Shape).Idx → EReal)
    (j : Fin 25) (c : Fin 150) :
    Ttab nodes adj (ix2 j c)
      = if c.val % 6 < 3 then 0
        else if c.val % 6 = 3 then nodes (ix2 j (0 : Fin 2))
        else if c.val % 6 = 4 then nodes (ix2 j (1 : Fin 2))
        else adj (ix2 j (⟨c.val / 6, by have := c.isLt; omega⟩ : Fin 25)) := rfl

/-- Column `6 g + k` of the scatter table has its single one in row `3 g + k` when `k < 3` (the only row
    `i` with `i / 3 = g` and `i % 3 = k`), and no one at all when `k ≥ 3` (because `i % 3 < 3`). So the
    state sum is that one state feature, or zero. No finiteness is needed: `x * 0 = 0` for every
    extended real. -/
theorem state_sum (f : Fin 75 → EReal) (g : Fin 25) (k : Fin 6) :
    (∑ i : Fin 75, f i * Ptab (ix2 i (⟨6 * g.val + k.val, by omega⟩ : Fin 150)))
      = if h : k.val < 3 then f (⟨3 * g.val + k.val, by omega⟩ : Fin 75) else 0 := by
  have hg := g.isLt
  have hk := k.isLt
  split_ifs with h
  · rw [Finset.sum_eq_single (⟨3 * g.val + k.val, by omega⟩ : Fin 75)]
    · rw [Ptab_ix2, if_pos, mul_one]
      constructor <;> simp only <;> omega
    · intro i _ hi
      rw [Ptab_ix2, if_neg, mul_zero]
      rintro ⟨h1, h2⟩
      apply hi
      apply Fin.ext
      simp only at h1 h2 ⊢
      omega
    · intro hn
      exact absurd (Finset.mem_univ _) hn
  · apply Finset.sum_eq_zero
    intro i _
    rw [Ptab_ix2, if_neg, mul_zero]
    rintro ⟨h1, h2⟩
    simp only at h1 h2
    omega

/-- A sum against a one-hot row keeps the one term at the hot position. -/
theorem gather_sum (r : Fin 25) (t : Fin 25 → EReal) :
    (∑ j : Fin 25, (if r = j then (1 : EReal) else 0) * t j) = t r := by
  rw [Finset.sum_eq_single r]
  · rw [if_pos rfl, one_mul]
  · intro j _ hj
    rw [if_neg (fun e => hj e.symm), zero_mul]
  · intro hn
    exact absurd (Finset.mem_univ _) hn

/-- Column `6 g + k` of a slab: the state sum against the scatter table plus the one-hot sum against the
    gather table is the specification's entry. -/
theorem slab_value (f : Fin 75 → EReal) (w : BitVec 32) (nodes : (⟨2, ![25, 2]⟩ : Shape).Idx → EReal)
    (adj : (⟨2, ![25, 25]⟩ : Shape).Idx → EReal) (g : Fin 25) (k : Fin 6) :
    (∑ i : Fin 75, f i * Ptab (ix2 i (⟨6 * g.val + k.val, by omega⟩ : Fin 150)))
      + (∑ j : Fin 25, (if row w = j then (1 : EReal) else 0) * Ttab nodes adj (ix2 j (⟨6 * g.val + k.val, by omega⟩ : Fin 150)))
      = if h : k.val < 3 then f (⟨3 * g.val + k.val, by omega⟩ : Fin 75)
        else if k.val = 3 then nodes (ix2 (row w) (0 : Fin 2))
        else if k.val = 4 then nodes (ix2 (row w) (1 : Fin 2))
        else adj (ix2 (row w) g) := by
  have hg := g.isLt
  have hk := k.isLt
  rw [state_sum,
    gather_sum (row w) (fun j => Ttab nodes adj (ix2 j (⟨6 * g.val + k.val, by omega⟩ : Fin 150))),
    Ttab_ix2]
  have hmod : (6 * g.val + k.val) % 6 = k.val := by omega
  have hdiv : (6 * g.val + k.val) / 6 = g.val := by omega
  have hgg : (⟨(6 * g.val + k.val) / 6, by omega⟩ : Fin 25) = g := Fin.ext hdiv
  simp only [hmod, hgg]
  by_cases h : k.val < 3
  · rw [dif_pos h, if_pos h, add_zero, dif_pos h]
  · rw [dif_neg h, if_neg h, zero_add, dif_neg h]

end Cert.Spec

end
-- ==== Proof.KernelValue.lean ====
/-
  The value of the idealized kernel program: after @main, its result buffer holds the specification
  `Cert.Spec.G` of the four arguments, and the arguments are as launched.

  The region's output array has 65536 rows and 1200 columns; grid point `t` writes rows `2048 t` to
  `2048 t + 2047`.  Row `R`, column `150 a + 6 g + k` ends holding the specification's entry at batch
  row `R`, agent `a`, node `g`, slot `k`: the state sum against the zero-one scatter table picks the
  node's state feature, the one-hot sum against the gather table picks the visited node's row.  The
  final reshape to four axes reads the same row-major position.
-/
import proofs.«424781_j79190607003709_3_alg».proof.Proof.KernelIdealBody
import proofs.«424781_j79190607003709_3_alg».proof.Proof.HostTables
import proofs.«424781_j79190607003709_3_alg».proof.Proof.ScatterTable
import proofs.«424781_j79190607003709_3_alg».proof.Proof.SlabEntry
import proofs.«424781_j79190607003709_3_alg».proof.Proof.SlabSums
import proofs.«424781_j79190607003709_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Hand Cert.KernelIdeal.Tables Cert.KernelIdeal.Slab
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four arguments as launched on core `c`. -/
abbrev aState (c : Dev nD) : S65536x25x3.Idx → EReal := m ((c : Thread nD τ).loc main_arg0)
abbrev aVisit (c : Dev nD) : S65536x8.Idx → BitVec 32 := m ((c : Thread nD τ).loc main_arg1)
abbrev aNodes (c : Dev nD) : S25x2.Idx → EReal := m ((c : Thread nD τ).loc main_arg2)
abbrev aAdj (c : Dev nD) : S25x25.Idx → EReal := m ((c : Thread nD τ).loc main_arg3)

/-- The region's output array as one function of the arguments: row `R`, column `150 a + 6 g + k`. -/
def Gflat (c : Dev nD) : S65536x1200.Idx → EReal := fun i =>
  Cert.Spec.Gc (aState m c) (aVisit m c) (aNodes m c) (aAdj m c)
    (⟨(i 0).val, (i 0).isLt⟩ : Fin 65536)
    (⟨(i 1).val / 150, by have := (i 1).isLt; change (i 1).val < 1200 at this; omega⟩ : Fin 8)
    (⟨(i 1).val % 150 / 6, by have := (i 1).isLt; change (i 1).val < 1200 at this; omega⟩ : Fin 25)
    (⟨(i 1).val % 6, Nat.mod_lt _ (by decide)⟩ : Fin 6)

/-! ## The input blocks at a grid point -/

abbrev blk0 (c : Dev nD) (t : Fin cfg0.N) : Vec Ideal S2048x75 .f32 := iblk m c 0 t
abbrev blk1 (c : Dev nD) (t : Fin cfg0.N) : Vec Ideal S2048x8 .i32 := iblk m c 1 t
abbrev blk2 (c : Dev nD) (t : Fin cfg0.N) : Vec Ideal S75x150 .f32 := iblk m c 2 t
abbrev blk3 (c : Dev nD) (t : Fin cfg0.N) : Vec Ideal S25x150 .f32 := iblk m c 3 t

/-- The printed index maps over the grid: the two row-tiled inputs and the output move with the grid
    point, the two tables stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt N_0

/-- The state block at point `t`: rows `2048 t + r` of the flattened state. -/
theorem blk0_apply (c : Dev nD) (t : Fin cfg0.N) (r : Fin 2048) (k : Fin 75) :
    blk0 m c t (ix2 r k)
      = Cert.Spec.stateFlat (aState m c) (ix2 (⟨2048 * t.val + r.val, by have := t_lt t; omega⟩ : Fin 65536) k) := by
  show V m c main_v0 (((cfg0.win 0).blk t).view.emb (ix2 r k)) = _
  rw [V_state]
  refine congrArg _ (funext fun a => Fin.ext ?_)
  obtain ⟨e0, e1, -⟩ := idx_facts t
  match a with
  | ⟨0, _⟩ => show win0_0.index t (0 : Fin 2) * 2048 + 1 * r.val = 2048 * t.val + r.val; omega
  | ⟨1, _⟩ => show win0_0.index t (1 : Fin 2) * 75 + 1 * k.val = k.val; omega

/-- The visit block at point `t`: rows `2048 t + r` of the visit indices. -/
theorem blk1_apply (c : Dev nD) (t : Fin cfg0.N) (r : Fin 2048) (a : Fin 8) :
    blk1 m c t (ix2 r a) = aVisit m c (ix2 (⟨2048 * t.val + r.val, by have := t_lt t; omega⟩ : Fin 65536) a) := by
  show V m c main_arg1 (((cfg0.win 1).blk t).view.emb (ix2 r a)) = _
  rw [V_main_arg1]
  refine congrArg _ (funext fun d => Fin.ext ?_)
  obtain ⟨-, -, e2, e3, -⟩ := idx_facts t
  match d with
  | ⟨0, _⟩ => show win0_1.index t (0 : Fin 2) * 2048 + 1 * r.val = 2048 * t.val + r.val; omega
  | ⟨1, _⟩ => show win0_1.index t (1 : Fin 2) * 8 + 1 * a.val = a.val; omega

/-- The scatter table's block is the whole table at every point. -/
theorem blk2_eq (c : Dev nD) (t : Fin cfg0.N) : blk2 m c t = Cert.Spec.Ptab := by
  funext y
  show V m c main_v30 (((cfg0.win 2).blk t).view.emb y) = _
  rw [V_P]
  refine congrArg _ (funext fun d => Fin.ext ?_)
  obtain ⟨-, -, -, -, e4, e5, -⟩ := idx_facts t
  match d with
  | ⟨0, _⟩ => show win0_2.index t (0 : Fin 2) * 75 + 1 * (y 0).val = (y 0).val; omega
  | ⟨1, _⟩ => show win0_2.index t (1 : Fin 2) * 150 + 1 * (y 1).val = (y 1).val; omega

/-- The gather table's block is the whole table at every point. -/
theorem blk3_eq (c : Dev nD) (t : Fin cfg0.N) : blk3 m c t = Cert.Spec.Ttab (aNodes m c) (aAdj m c) := by
  funext y
  show V m c main_v43 (((cfg0.win 3).blk t).view.emb y) = _
  rw [V_T]
  refine congrArg _ (funext fun d => Fin.ext ?_)
  obtain ⟨-, -, -, -, -, -, e6, e7, -⟩ := idx_facts t
  match d with
  | ⟨0, _⟩ => show win0_3.index t (0 : Fin 2) * 25 + 1 * (y 0).val = (y 0).val; omega
  | ⟨1, _⟩ => show win0_3.index t (1 : Fin 2) * 150 + 1 * (y 1).val = (y 1).val; omega

/-! ## What a grid point writes back -/

/-- The tile a point leaves, entry by entry over explicit coordinates, is the specification's entry at
    the point's rows. -/
theorem tile_entry (c : Dev nD) (t : Fin cfg0.N) (r : Fin 2048) (a : Fin 8) (g : Fin 25) (k : Fin 6) :
    outTile (F := Ideal) (blk0 m c t) (blk1 m c t) (blk2 m c t) (blk3 m c t)
        (ix2 r (⟨150 * a.val + (6 * g.val + k.val), by omega⟩ : Fin 1200))
      = Cert.Spec.Gc (aState m c) (aVisit m c) (aNodes m c) (aAdj m c)
          (⟨2048 * t.val + r.val, by have := t_lt t; omega⟩ : Fin 65536) a g k := by
  rw [blk2_eq, blk3_eq]
  refine (outTile_slab (blk0 m c t) (blk1 m c t) Cert.Spec.Ptab (Cert.Spec.Ttab (aNodes m c) (aAdj m c)) r a
    (⟨6 * g.val + k.val, by omega⟩ : Fin 150)).trans ?_
  rw [blk1_apply]
  refine (Cert.Spec.slab_value (fun i => blk0 m c t (ix2 r i)) _ (aNodes m c) (aAdj m c) g k).trans ?_
  unfold Cert.Spec.Gc
  by_cases hk : k.val < 3
  · rw [dif_pos hk, dif_pos hk, blk0_apply]
    unfold Cert.Spec.stateFlat
    refine congrArg _ (funext fun d => Fin.ext ?_)
    match d with
    | ⟨0, _⟩ => rfl
    | ⟨1, _⟩ => show (3 * g.val + k.val) / 3 = g.val; omega
    | ⟨2, _⟩ => show (3 * g.val + k.val) % 3 = k.val; omega
  · rw [dif_neg hk, dif_neg hk]

/-- What point `t` writes back is block `t` of `Gflat`. -/
theorem flushed4_eq (c : Dev nD) (t : Fin cfg0.N) :
    (dats m 0 c).flushed 4 t = ((cfg0.win 4).blk t).view.read (Elt Ideal) (Gflat m c) := by
  show (cfg0.win 4).cut (grid0.coords t) ((dats m 0 c).after 4 t) = _
  rw [after4]
  funext y
  show outTile (F := Ideal) (blk0 m c t) (blk1 m c t) (blk2 m c t) (blk3 m c t) y
    = Gflat m c (((cfg0.win 4).blk t).view.emb y)
  obtain ⟨r, col, rfl⟩ : ∃ (r : Fin 2048) (col : Fin 1200), y = ix2 r col := ⟨y 0, y 1, eq_ix2 y⟩
  have hcol : col = (⟨150 * (col.val / 150) + (6 * (col.val % 150 / 6) + col.val % 6), by omega⟩ : Fin 1200) :=
    Fin.ext (by show col.val = 150 * (col.val / 150) + (6 * (col.val % 150 / 6) + col.val % 6); omega)
  rw [hcol]
  refine (tile_entry m c t r ⟨col.val / 150, by omega⟩ ⟨col.val % 150 / 6, by omega⟩ ⟨col.val % 6, by omega⟩).trans ?_
  obtain ⟨-, -, -, -, -, -, -, -, e8, e9⟩ := idx_facts t
  unfold Gflat
  have h0 : ((((cfg0.win 4).blk t).view.emb (ix2 r (⟨150 * (col.val / 150) + (6 * (col.val % 150 / 6) + col.val % 6), by omega⟩ : Fin 1200))) 0).val
      = 2048 * t.val + r.val := by
    show win0_4.index t (0 : Fin 2) * 2048 + 1 * r.val = _; omega
  have h1 : ((((cfg0.win 4).blk t).view.emb (ix2 r (⟨150 * (col.val / 150) + (6 * (col.val % 150 / 6) + col.val % 6), by omega⟩ : Fin 1200))) 1).val
      = col.val := by
    show win0_4.index t (1 : Fin 2) * 1200 + 1 * (150 * (col.val / 150) + (6 * (col.val % 150 / 6) + col.val % 6)) = _; omega
  congr 1
  · exact Fin.ext h0.symm
  · exact Fin.ext (by show col.val / 150 = _ / 150; rw [h1])
  · exact Fin.ext (by show col.val % 150 / 6 = _ % 150 / 6; rw [h1])
  · exact Fin.ext (by show col.val % 6 = _ % 6; rw [h1])

/-- An index of the output array is in point `t`'s block iff each coordinate is in the block's range. -/
theorem mem_blk4 (t : Fin cfg0.N) (i : S65536x1200.Idx) :
    i ∈ ((cfg0.win 4).blk t).view.set ↔ ∀ a : Fin 2, win0_4.index t a * S2048x1200.size a ≤ (i a).val ∧ (i a).val < win0_4.index t a * S2048x1200.size a + S2048x1200.size a := by
  show i ∈ ((View.whole main_v44).slice (win0_4.rect t)).set ↔ _
  rw [View.set_slice_whole, Rect.mem_set_unit]
  exact Iff.rfl

/-- Every row of the output array lies in the block of the point that owns its row tile. -/
theorem cover4 (i : S65536x1200.Idx) :
    ∃ t : Fin cfg0.N, (cfg0.win 4).flush t = true ∧ i ∈ ((cfg0.win 4).blk t).view.set := by
  have hi0 : (i 0).val < 65536 := (i 0).isLt
  have hi1 : (i 1).val < 1200 := (i 1).isLt
  let t : Fin cfg0.N := ⟨(i 0).val / 2048, lt_of_lt_of_eq (show (i 0).val / 2048 < 32 by omega) N_0.symm⟩
  obtain ⟨-, -, -, -, -, -, -, -, e8, e9⟩ := idx_facts t
  have ht : t.val = (i 0).val / 2048 := rfl
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1200 ≤ (i 1).val ∧ (i 1).val < win0_4.index t (1 : Fin 2) * 1200 + 1200; omega

/-- The output array after the region. -/
theorem final4 (c : Dev nD) : (dats m 0 c).arrAt 4 cfg0.N = Gflat m c :=
  (dats m 0 c).arrAt_eq_of_cover 4 (Gflat m c) (fun t _ => flushed4_eq m c t) cover4

/-! ## The final reshape -/

/-- The result buffer after @main: the output array read at the same row-major position. -/
theorem result_eq (c : Dev nD) :
    (Pipeline.afterTail₀ cfgs (dats m) 0 (V0 m) [hostOps1] c main_v45 : S65536x8x25x6.Idx → EReal)
      = Cert.Spec.G (aState m c) (aVisit m c) (aNodes m c) (aAdj m c) := by
  unfold Pipeline.afterTail₀
  show StableHlo.after hostOps1 _ (Proc.devRef .tc main_v45) = _
  after_results
  rw [show Pipeline.withArrays (cfgs 0).spec c (V0 m c) (fun w => (dats m 0 c).arrAt w (cfgs 0).N) (Proc.devRef .tc main_v44)
      = (dats m 0 c).arrAt 4 cfg0.N from Pipeline.withArrays_arr spec0 launch0.win.arr_inj c _ _ 4, final4]
  funext j
  obtain ⟨b, a, g, k, rfl⟩ : ∃ (b : Fin 65536) (a : Fin 8) (g : Fin 25) (k : Fin 6), j = ix4 b a g k :=
    ⟨j 0, j 1, j 2, j 3, eq_ix4 j⟩
  rw [Cert.Spec.G_ix4]
  refine (shapeCast_apply (Gflat m c) shapeCasts_S65536x1200_S65536x8x25x6 (ix4 b a g k)
    (ix2 b (⟨150 * a.val + (6 * g.val + k.val), by omega⟩ : Fin 1200)) ?_).trans ?_
  · rw [Shape.rowMajor_val_two, Shape.rowMajor_val_four]
    show b.val * 1200 + (150 * a.val + (6 * g.val + k.val)) = ((b.val * 8 + a.val) * 25 + g.val) * 6 + k.val
    omega
  · unfold Gflat
    congr 1
    · exact Fin.ext (by show (150 * a.val + (6 * g.val + k.val)) / 150 = a.val; omega)
    · exact Fin.ext (by show (150 * a.val + (6 * g.val + k.val)) % 150 / 6 = g.val; omega)
    · exact Fin.ext (by show (150 * a.val + (6 * g.val + k.val)) % 6 = k.val; omega)

/-! ## The run, read -/

/-- Every weakly fair execution of the idealized kernel program terminates with its result buffer at the
    specification of the arguments and the arguments as launched. -/
theorem run : θ_run defs (onTc (τ := τ) (main (F := Ideal))) ⟨m, fun _ => 0, ρ⟩ fun r => ∀ c : Dev nD,
      r.2.mem ((c : Thread nD τ).loc main_v45) = Cert.Spec.G (aState m c) (aVisit m c) (aNodes m c) (aAdj m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v45 (Pipeline.mem_restRefs_of main_v45 (by decide) (by decide))).trans (result_eq m c),
     ((h c).2 main_arg0 (Pipeline.mem_restRefs_of main_arg0 (by decide) (by decide))).trans (W_arg m (dats m) main_arg0 (.inl rfl) c),
     ((h c).1 1).trans (((dats m 0 c).arrAt_in 1 rfl _).trans ((A_eq m c 1).trans (V_main_arg1 m c))),
     ((h c).2 main_arg2 (Pipeline.mem_restRefs_of main_arg2 (by decide) (by decide))).trans (W_arg m (dats m) main_arg2 (.inr (.inl rfl)) c),
     ((h c).2 main_arg3 (Pipeline.mem_restRefs_of main_arg3 (by decide) (by decide))).trans (W_arg m (dats m) main_arg3 (.inr (.inr rfl)) c)⟩)
    (run_main m ρ)

end Cert.KernelIdeal.KValue

end
-- ==== Proof.RefValue.lean ====
/-
  The reference's result, index by index, is the specification `Cert.Spec.G` of its four arguments.
-/
import proofs.«424781_j79190607003709_3_alg».proof.Proof.Gen.ReferenceIdeal.Read
import proofs.«424781_j79190607003709_3_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.ShloMosaic.ValueIdx

section RowGather
variable {α : Type}

/-- The dimension numbers of a row lookup `table[idx]`: an operand `[N, M]`, start indices `[R, C, 1]` whose one component names a
    row (axis 0, collapsed, slice size 1), and a result `[R, C, M]` whose last axis runs over the whole row (slice size `M`). -/
abbrev rowDims (N M R C : Nat)
    (wf : GatherDims.WF ⟨2, ![N, M]⟩ ⟨3, ![R, C, 1]⟩ ⟨3, ![R, C, M]⟩ [2] [0] [] [0] [] 2 ![1, M]) :
    GatherDims ⟨2, ![N, M]⟩ ⟨3, ![R, C, 1]⟩ ⟨3, ![R, C, M]⟩ where
  offsetDims := [2]
  collapsedSliceDims := [0]
  operandBatchingDims := []
  startIndicesBatchingDims := []
  startIndexMap := [0]
  indexVectorDim := 2
  sliceSizes := ![1, M]
  wf := wf

/-- The row lookup read at `(b, a, e)`: the operand's entry `e` of the row that the start index `idx[b, a, 0]`, read signed and
    clamped into `[0, N − 1]`, names. On axis 0 the operand index is the clamped start alone (the axis is collapsed and not a
    batching one); on axis 1 it is the result's offset coordinate alone (the start index map does not name the axis). -/
theorem gather_row_apply {N M R C w : Nat} (hN : 0 < N)
    (wf : GatherDims.WF ⟨2, ![N, M]⟩ ⟨3, ![R, C, 1]⟩ ⟨3, ![R, C, M]⟩ [2] [0] [] [0] [] 2 ![1, M])
    (x : (⟨2, ![N, M]⟩ : Shape).Idx → α) (idx : IVec ⟨3, ![R, C, 1]⟩ w) (b : Fin R) (a : Fin C) (e : Fin M) :
    Host.gather (rowDims N M R C wf) x idx (ix3 b a e)
      = x (ix2 (⟨min (idx (ix3 b a (0 : Fin 1))).toInt.toNat (N - 1), by omega⟩ : Fin N) e) := by
  unfold Host.gather
  congr 1
  funext ax
  refine Fin.ext ?_
  match ax with
  | ⟨0, _⟩ =>
    show (rowDims N M R C wf).start (ix3 b a e) idx 0 + (rowDims N M R C wf).batchCoord (ix3 b a e) 0
        + (rowDims N M R C wf).offCoord (ix3 b a e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M R C wf).startIndexMap from List.mem_singleton.mpr rfl)]
    have hsi : (rowDims N M R C wf).siIdx (ix3 b a e) ⟨List.idxOf (0 : Fin 2) (rowDims N M R C wf).startIndexMap,
        List.idxOf_lt_length_iff.2 (List.mem_singleton.mpr rfl)⟩ = ix3 b a (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims N M R C wf).start (ix3 b a e) idx 1 + (rowDims N M R C wf).batchCoord (ix3 b a e) 1
        + (rowDims N M R C wf).offCoord (ix3 b a e) 1 = _
    have hne : ∀ l : List (Fin 2), l = [0] → (1 : Fin 2) ∉ l := fun l hl => by subst hl; decide
    have h1 : (1 : Fin 2) ∉ (rowDims N M R C wf).startIndexMap := hne _ rfl
    have hk : (1 : Fin 2) ∈ (rowDims N M R C wf).sKept :=
      (GatherDims.mem_sKept _ _).mpr ⟨hne _ rfl, List.not_mem_nil⟩
    unfold GatherDims.start
    rw [dif_neg h1, GatherDims.batchCoord_eq_zero _ _ _ List.not_mem_nil]
    unfold GatherDims.offCoord
    rw [dif_pos hk]
    simp only [Nat.add_zero, Nat.zero_add]
    rfl

end RowGather

open Cert.ReferenceIdeal.Read

/-- A word read as a non-negative signed integer is not below zero. -/
theorem slt_zero_of_nonneg (w : BitVec 32) (h : 0 ≤ w.toInt) : IntOp.cmpi .slt w 0#32 = 0#1 := by
  unfold IntOp.cmpi
  show BitVec.ofBool (w.slt 0#32) = 0#1
  have hf : w.slt 0#32 = false := by
    simp only [BitVec.slt, decide_eq_false_iff_not, not_lt]
    simpa using h
  rw [hf]; rfl

/-! ## The layout operations' index maps, composed, at an index given by its coordinates -/

section Idx
variable (b : Fin 65536) (a : Fin 8) (g : Fin 25)

/-- The two broadcasts of the state read `state[b, g, f]` at `(b, a, g, f)`. -/
theorem idx_state (f : Fin 3) : idx_main_v14 (idx_main_v15 (ix4 b a g f)) = ix3 b g f := by
  funext c; match c with | ⟨0, _⟩ => rfl | ⟨1, _⟩ => rfl | ⟨2, _⟩ => rfl

/-- The two broadcasts of the gathered coordinates read entry `(b, a, e)` at `(b, a, g, e)`. -/
theorem idx_nodes (e : Fin 2) : idx_main_v16 (idx_main_v17 (ix4 b a g e)) = ix3 b a e := by
  funext c; match c with | ⟨0, _⟩ => rfl | ⟨1, _⟩ => rfl | ⟨2, _⟩ => rfl

/-- The broadcast of the gathered adjacency rows reads entry `(b, a, g)` at `(b, a, g, 0)`. -/
theorem idx_adj : idx_main_v18 (ix4 b a g (0 : Fin 1)) = ix3 b a g := by
  funext c; match c with | ⟨0, _⟩ => rfl | ⟨1, _⟩ => rfl | ⟨2, _⟩ => rfl

/-- The start indices `[b, a, 0]` are the normalised visit indices at `(b, a)`. -/
theorem idx_visit5 : idx_main_v5 (ix3 b a (0 : Fin 1)) = ix2 b a := by
  funext c; match c with | ⟨0, _⟩ => rfl | ⟨1, _⟩ => rfl

/-- The same for the second lookup's start indices. -/
theorem idx_visit12 : idx_main_v12 (ix3 b a (0 : Fin 1)) = ix2 b a := by
  funext c; match c with | ⟨0, _⟩ => rfl | ⟨1, _⟩ => rfl

end Idx

/-! ## The index normalisation `select(visit < 0, visit + 25, visit)` is `visit` where `visit ≥ 0` -/

section Visit
variable (x1 : (⟨S65536x8, .i32⟩ : BufTy).Contents (Elt Ideal)) (hpos : ∀ i, 0 ≤ (x1 i).toInt)
include hpos

/-- A non-negative visit index is kept by the normalisation: the comparison with zero is false, so the select takes its
    last operand. -/
theorem v4_eq (i : S65536x8.Idx) : val_main_v4 (F := Ideal) x1 i = x1 i := by
  rw [val_main_v4_apply, val_main_v1_apply, val_main_v0_apply, val_main_c_apply, slt_zero_of_nonneg _ (hpos i), select_zero]

/-- The same for the second lookup's normalisation. -/
theorem v11_eq (i : S65536x8.Idx) : val_main_v11 (F := Ideal) x1 i = x1 i := by
  rw [val_main_v11_apply, val_main_v8_apply, val_main_v7_apply, val_main_c_1_apply, slt_zero_of_nonneg _ (hpos i), select_zero]

/-- The first lookup's start index at `(b, a)` is the visit index there. -/
theorem v5_eq (b : Fin 65536) (a : Fin 8) : val_main_v5 (F := Ideal) x1 (ix3 b a (0 : Fin 1)) = x1 (ix2 b a) := by
  rw [val_main_v5_apply, idx_visit5, v4_eq x1 hpos]

/-- The second lookup's start index at `(b, a)` is the visit index there. -/
theorem v12_eq (b : Fin 65536) (a : Fin 8) : val_main_v12 (F := Ideal) x1 (ix3 b a (0 : Fin 1)) = x1 (ix2 b a) := by
  rw [val_main_v12_apply, idx_visit12, v11_eq x1 hpos]

end Visit

/-! ## The two lookups at an index: the table's row `row (visit[b, a])` -/

section Gather
variable (x1 : (⟨S65536x8, .i32⟩ : BufTy).Contents (Elt Ideal)) (hpos : ∀ i, 0 ≤ (x1 i).toInt)
include hpos

/-- `nodes[visit]` at `(b, a, e)`: coordinate `e` of the visited node. The clamp `min _ (25 − 1)` is `row`'s. -/
theorem v6_eq (x2 : (⟨S25x2, .f32⟩ : BufTy).Contents (Elt Ideal)) (b : Fin 65536) (a : Fin 8) (e : Fin 2) :
    val_main_v6 (F := Ideal) x1 x2 (ix3 b a e) = x2 (ix2 (Cert.Spec.row (x1 (ix2 b a))) e) := by
  unfold val_main_v6
  refine (gather_row_apply (N := 25) (M := 2) (R := 65536) (C := 8) (by omega) _ x2 (val_main_v5 (F := Ideal) x1) b a e).trans ?_
  have hw : ∀ (w w' : BitVec 32), w = w' → ∀ h, x2 (ix2 (⟨min w.toInt.toNat (25 - 1), h⟩ : Fin 25) e) = x2 (ix2 (Cert.Spec.row w') e) := by
    intro w w' hww h; subst hww; rfl
  exact hw _ _ (v5_eq x1 hpos b a) _

/-- `adj[visit]` at `(b, a, g)`: the adjacency entry between the visited node and `g`. -/
theorem v13_eq (x3 : (⟨S25x25, .f32⟩ : BufTy).Contents (Elt Ideal)) (b : Fin 65536) (a : Fin 8) (g : Fin 25) :
    val_main_v13 (F := Ideal) x1 x3 (ix3 b a g) = x3 (ix2 (Cert.Spec.row (x1 (ix2 b a))) g) := by
  unfold val_main_v13
  refine (gather_row_apply (N := 25) (M := 25) (R := 65536) (C := 8) (by omega) _ x3 (val_main_v12 (F := Ideal) x1) b a g).trans ?_
  have hw : ∀ (w w' : BitVec 32), w = w' → ∀ h, x3 (ix2 (⟨min w.toInt.toNat (25 - 1), h⟩ : Fin 25) g) = x3 (ix2 (Cert.Spec.row w') g) := by
    intro w w' hww h; subst hww; rfl
  exact hw _ _ (v12_eq x1 hpos b a) _

end Gather

/-! ## The concatenation along the last axis: slots 0 to 2 the first piece, 3 and 4 the second, 5 the third -/

section Cat
variable (x0 : (⟨S65536x25x3, .f32⟩ : BufTy).Contents (Elt Ideal)) (x1 : (⟨S65536x8, .i32⟩ : BufTy).Contents (Elt Ideal))
  (x2 : (⟨S25x2, .f32⟩ : BufTy).Contents (Elt Ideal)) (x3 : (⟨S25x25, .f32⟩ : BufTy).Contents (Elt Ideal))
  (b : Fin 65536) (a : Fin 8) (g : Fin 25) (k : Fin 6)

/-- A slot below 3 reads the first piece (no extent before it) at the same slot. -/
theorem cat_state (f : Fin 3) (hk : k.val = f.val) :
    val_main_v19 (F := Ideal) x0 x1 x2 x3 (ix4 b a g k) = val_main_v15 (F := Ideal) x0 (ix4 b a g f) := by
  unfold val_main_v19
  refine concatenate_apply_piece _ _ _ (ix4 b a g k) 0 (by show (0 : Nat) < 3; omega) S65536x8x25x3 (val_main_v15 (F := Ideal) x0) rfl rfl
    0 rfl (ix4 b a g f) ?_ ?_
  · intro c hc
    match c with
    | ⟨0, _⟩ => rfl
    | ⟨1, _⟩ => rfl
    | ⟨2, _⟩ => rfl
    | ⟨3, _⟩ => exact absurd rfl hc
  · show 0 + f.val = k.val
    omega

/-- Slot `3 + e` reads the second piece (extent 3 before it) at `e`. -/
theorem cat_nodes (e : Fin 2) (hk : k.val = 3 + e.val) :
    val_main_v19 (F := Ideal) x0 x1 x2 x3 (ix4 b a g k) = val_main_v17 (F := Ideal) x1 x2 (ix4 b a g e) := by
  unfold val_main_v19
  refine concatenate_apply_piece _ _ _ (ix4 b a g k) 1 (by show (1 : Nat) < 3; omega) S65536x8x25x2 (val_main_v17 (F := Ideal) x1 x2) rfl rfl
    3 rfl (ix4 b a g e) ?_ ?_
  · intro c hc
    match c with
    | ⟨0, _⟩ => rfl
    | ⟨1, _⟩ => rfl
    | ⟨2, _⟩ => rfl
    | ⟨3, _⟩ => exact absurd rfl hc
  · show 3 + e.val = k.val
    omega

/-- Slot 5 reads the third piece (extents 3 + 2 before it) at its one position. -/
theorem cat_adj (hk : k.val = 5) :
    val_main_v19 (F := Ideal) x0 x1 x2 x3 (ix4 b a g k) = val_main_v18 (F := Ideal) x1 x3 (ix4 b a g (0 : Fin 1)) := by
  unfold val_main_v19
  refine concatenate_apply_piece _ _ _ (ix4 b a g k) 2 (by show (2 : Nat) < 3; omega) S65536x8x25x1 (val_main_v18 (F := Ideal) x1 x3) rfl rfl
    5 rfl (ix4 b a g (0 : Fin 1)) ?_ ?_
  · intro c hc
    match c with
    | ⟨0, _⟩ => rfl
    | ⟨1, _⟩ => rfl
    | ⟨2, _⟩ => rfl
    | ⟨3, _⟩ => exact absurd rfl hc
  · show 5 + 0 = k.val
    omega

end Cat

/-- With every visit index non-negative, the reference's concatenated result is `G`. -/
theorem ref_eq (x0 : (⟨S65536x25x3, .f32⟩ : BufTy).Contents (Elt Ideal)) (x1 : (⟨S65536x8, .i32⟩ : BufTy).Contents (Elt Ideal))
    (x2 : (⟨S25x2, .f32⟩ : BufTy).Contents (Elt Ideal)) (x3 : (⟨S25x25, .f32⟩ : BufTy).Contents (Elt Ideal))
    (hpos : ∀ i, 0 ≤ (x1 i).toInt) :
    Cert.ReferenceIdeal.Read.val_main_v19 (F := Ideal) x0 x1 x2 x3 = Cert.Spec.G x0 x1 x2 x3 := by
  funext j
  obtain ⟨b, a, g, k, rfl⟩ : ∃ (b : Fin 65536) (a : Fin 8) (g : Fin 25) (k : Fin 6), j = ix4 b a g k :=
    ⟨_, _, _, _, eq_ix4 j⟩
  rw [Cert.Spec.G_ix4]
  unfold Cert.Spec.Gc
  by_cases h3 : k.val < 3
  · rw [dif_pos h3, cat_state x0 x1 x2 x3 b a g k ⟨k.val, h3⟩ rfl, val_main_v15_apply, val_main_v14_apply, idx_state]
  · rw [dif_neg h3]
    by_cases h4 : k.val = 3
    · rw [if_pos h4, cat_nodes x0 x1 x2 x3 b a g k (0 : Fin 2) (by omega), val_main_v17_apply, val_main_v16_apply,
        idx_nodes, v6_eq x1 hpos]
    · rw [if_neg h4]
      by_cases h5 : k.val = 4
      · rw [if_pos h5, cat_nodes x0 x1 x2 x3 b a g k (1 : Fin 2) (by omega), val_main_v17_apply, val_main_v16_apply,
          idx_nodes, v6_eq x1 hpos]
      · rw [if_neg h5, cat_adj x0 x1 x2 x3 b a g k (by omega), val_main_v18_apply, idx_adj, v13_eq x1 hpos]

end Cert.ReferenceIdeal.RefValue

end
-- ==== Proof.PreDecode.lean ====
/-
  What the precondition says of the visit indices: every one is non-negative as a signed integer.
-/
import proofs.«424781_j79190607003709_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has exactly one index. -/
instance : Subsingleton S_.Idx := ⟨fun _ _ => funext fun d => d.elim0⟩

/-- If the precondition evaluates to true, every visit index is at least zero. -/
theorem visit_nonneg [Cert.Pre_finite_inputs.Facts] (x0 : FVec Ideal S65536x25x3 .f32) (x1 : IVec S65536x8 32)
    (x2 : FVec Ideal S25x2 .f32) (x3 : FVec Ideal S25x25 .f32)
    (h : Cert.Pre_finite_inputs.fn (F := Ideal) x0 x1 x2 x3 = (fun _ => 1#1)) :
    ∀ i, 0 ≤ (x1 i).toInt := by
  intro i
  -- read the precondition at its one index and put its operations in view
  have h0 := congrFun h ValueIdx.ix0
  dsimp only [Cert.Pre_finite_inputs.fn, Cert.Pre_finite_inputs.fn_part1] at h0
  -- the outermost conjunction: its right conjunct is the statement about the visit indices
  have h1 : Host.reduce IntOp.andi _ _ _ _ ValueIdx.ix0 = 1#1 := (IntOp.andi_eq_one.1 h0).2
  -- a conjunction over all positions that is true is true at each position
  have h2 := Host.reduce_andi_all _ _ _ _ _ h1 i
  -- the comparison at position i: the broadcast zero is at most the word, read signed
  have h3 := IntOp.cmpi_sge.1 h2
  exact h3

end Cert.PreDecode

end
-- ==== Proof.lean ====
/-
  The certificate: the Pallas kernel program (a state scatter product plus, per agent, a one-hot gather
  product, written as eight column slabs of a flat [65536, 1200] array and reshaped) against the jnp
  reference (two gathers, two broadcasts and a concatenation).

  Both compute, at batch row `b`, agent `a`, node `g`, slot `k`: the node's state feature for `k < 3`, the
  visited node's two coordinates for `k = 3, 4`, and the adjacency entry between the visited node and `g`
  for `k = 5`, where the visited node is the visit index clamped into the table's rows.  The kernel clamps
  the index itself; the reference first shifts a negative index by 25 and then clamps.  On non-negative
  indices the two agree, which is what the precondition's last conjunct grants.  The products with zero-one
  weights are exact on the extended reals at every value, infinite ones included, so the finiteness
  conjuncts are not used.

  The three frames: each kernel program by the pipeline's launch theorem over the body's triple
  (Proof/KernelBody.lean at the word level, Proof/KernelIdealBody.lean idealized), the reference by its
  generated run.  The idealization rewrote nothing, so `preserves` is trivial.
-/
import proofs.«424781_j79190607003709_3_alg».proof.Defs
import proofs.«424781_j79190607003709_3_alg».proof.Proof.Gen.Kernel
import proofs.«424781_j79190607003709_3_alg».proof.Proof.Gen.KernelIdeal
import proofs.«424781_j79190607003709_3_alg».proof.Proof.Gen.ReferenceIdeal
import proofs.«424781_j79190607003709_3_alg».proof.Proof.Gen.ReferenceIdeal.Run
import proofs.«424781_j79190607003709_3_alg».proof.Proof.Gen.ReferenceIdeal.Read
import proofs.«424781_j79190607003709_3_alg».proof.Proof.Gen.Pre_finite_inputs
import proofs.«424781_j79190607003709_3_alg».proof.Proof.KernelBody
import proofs.«424781_j79190607003709_3_alg».proof.Proof.KernelValue
import proofs.«424781_j79190607003709_3_alg».proof.Proof.RefValue
import proofs.«424781_j79190607003709_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification of the arguments in their result buffer: the kernel
    program by its value run, the reference by its generated run read index by index, where the visit
    indices are non-negative by the precondition. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact Cert.ReferenceIdeal.RefValue.ref_eq _ _ _ _ (Cert.PreDecode.visit_nonneg _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
